-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x40x256 : Shape := ⟨3, ![32, 40, 256]⟩
abbrev S32x256 : Shape := ⟨2, ![32, 256]⟩
abbrev S768x512 : Shape := ⟨2, ![768, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S_ : Shape := ⟨0, ![]⟩

class Facts : Prop where
  bcast_S_S32x40x256 : S_.BroadcastsInDim S32x40x256 (![] : Fin 0 → Fin S32x40x256.rank)
  reducesTo_S32x40x256_S_d0_1_2 : S32x40x256.ReducesTo [0, 1, 2] S_
  h_S_ : 0 < S_.numel
  bcast_S_S32x256 : S_.BroadcastsInDim S32x256 (![] : Fin 0 → Fin S32x256.rank)
  reducesTo_S32x256_S_d0_1 : S32x256.ReducesTo [0, 1] S_
  bcast_S_S768x512 : S_.BroadcastsInDim S768x512 (![] : Fin 0 → Fin S768x512.rank)
  reducesTo_S768x512_S_d0_1 : S768x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part3 {F : FTy → Type} [FloatOps F] (main_arg11 : FVec F S256 .f32) (main_v48 : IVec S_ 1) (main_v49 : FVec F S512x256 .f32) (main_v50 : FVec F S512x256 .f32) : IVec S_ 1 :=
  let main_v51 : IVec S512x256 1 := cmpf .olt main_v49 main_v50
  let main_c_19 : IVec S_ 1 := constantI S_ 1 1#1
  let main_v52 : IVec S_ 1 := (fun x v => Host.reduce IntOp.andi x v reducesTo_S512x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  main_v58

def fn_part2 {F : FTy → Type} [FloatOps F] (main_arg7 : FVec F S512 .f32) (main_arg8 : FVec F S512x512 .f32) (main_arg9 : FVec F S512 .f32) (main_arg10 : FVec F S512x256 .f32) (main_arg11 : FVec F S256 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x256 .f32 := Host.absf main_arg10
  let main_cst_18 : FVec F S_ .f32 := constant S_ .f32 0x7F800000#32
  let main_v50 : FVec F S512x256 .f32 := broadcastInDim S512x256 ![] bcast_S_S512x256 main_cst_18
  fn_part3 (F := F) main_arg11 main_v48 main_v49 main_v50

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x256 .f32) (main_arg11 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S32x40x256 .f32) (main_arg1 : FVec F S32x256 .f32) (main_arg2 : FVec F S768x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x256 .f32) (main_arg11 : FVec F S256 .f32) : IVec S_ 1 :=
  let main_v0 : FVec F S32x40x256 .f32 := Host.absf main_arg0
  let main_cst : FVec F S_ .f32 := constant S_ .f32 0x7F800000#32
  let main_v1 : FVec F S32x40x256 .f32 := broadcastInDim S32x40x256 ![] bcast_S_S32x40x256 main_cst
  let main_v2 : IVec S32x40x256 1 := cmpf .olt main_v0 main_v1
  let main_c : IVec S_ 1 := constantI S_ 1 1#1
  let main_v3 : IVec S_ 1 := (fun x v => Host.reduce IntOp.andi x v reducesTo_S32x40x256_S_d0_1_2 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S768x512 .f32 := Host.absf main_arg2
  let main_cst_2 : FVec F S_ .f32 := constant S_ .f32 0x7F800000#32
  let main_v10 : FVec F S768x512 .f32 := broadcastInDim S768x512 ![] bcast_S_S768x512 main_cst_2
  let main_v11 : IVec S768x512 1 := cmpf .olt main_v9 main_v10
  let main_c_3 : IVec S_ 1 := constantI S_ 1 1#1
  let main_v12 : IVec S_ 1 := (fun x v => Host.reduce IntOp.andi x v reducesTo_S768x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_v13 main_v16
-- ==== Kernel.lean ====
abbrev S32x40x256 : Shape := ⟨3, ![32, 40, 256]⟩
abbrev S32x256 : Shape := ⟨2, ![32, 256]⟩
abbrev S768x512 : Shape := ⟨2, ![768, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S32x1x256 : Shape := ⟨3, ![32, 1, 256]⟩
abbrev S1x40x256 : Shape := ⟨3, ![1, 40, 256]⟩
abbrev S1x1x256 : Shape := ⟨3, ![1, 1, 256]⟩
abbrev S40x256 : Shape := ⟨2, ![40, 256]⟩
abbrev S1x256 : Shape := ⟨2, ![1, 256]⟩
abbrev S1600x256 : Shape := ⟨2, ![1600, 256]⟩
abbrev S256x512 : Shape := ⟨2, ![256, 512]⟩
abbrev S1600x512 : Shape := ⟨2, ![1600, 512]⟩
abbrev S1x512 : Shape := ⟨2, ![1, 512]⟩

abbrev nBuf : Space → Nat
  | .hbm => 15
  | .vmem => 16
  | .smem => 0
  | _ => 0

abbrev bufTy : (tb : Table) → Fin (tcTables nBuf tb) → BufTy
  | .hbm, ⟨0, _⟩ => ⟨S32x40x256, .f32⟩
  | .hbm, ⟨1, _⟩ => ⟨S32x256, .f32⟩
  | .hbm, ⟨2, _⟩ => ⟨S768x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S32x1x256, .f32⟩
  | .hbm, ⟨13, _⟩ => ⟨S32x1x256, .f32⟩
  | .hbm, ⟨14, _⟩ => ⟨S32x256, .f32⟩
  | .local _ .vmem, ⟨0, _⟩ => ⟨S1x40x256, .f32⟩
  | .local _ .vmem, ⟨1, _⟩ => ⟨S1x40x256, .f32⟩
  | .local _ .vmem, ⟨2, _⟩ => ⟨S1x1x256, .f32⟩
  | .local _ .vmem, ⟨3, _⟩ => ⟨S1x1x256, .f32⟩
  | .local _ .vmem, ⟨4, _⟩ => ⟨S768x512, .f32⟩
  | .local _ .vmem, ⟨5, _⟩ => ⟨S512, .f32⟩
  | .local _ .vmem, ⟨6, _⟩ => ⟨S512x512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S512x512, .f32⟩
  | .local _ .vmem, ⟨11, _⟩ => ⟨S512, .f32⟩
  | .local _ .vmem, ⟨12, _⟩ => ⟨S512x256, .f32⟩
  | .local _ .vmem, ⟨13, _⟩ => ⟨S256, .f32⟩
  | .local _ .vmem, ⟨14, _⟩ => ⟨S1x1x256, .f32⟩
  | .local _ .vmem, ⟨15, _⟩ => ⟨S1x1x256, .f32⟩
  | _, _ => ⟨S32x40x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x40x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S32x256_S32x1x256 : S32x256.ShapeCasts S32x1x256
  inb_S1x40x256_S1x40x256_0_0_0 : ∀ a, (![0, 0, 0] : Fin 3 → Nat) a + S1x40x256.size a ≤ S1x40x256.size a
  h_S1x40x256 : 0 < S1x40x256.numel
  shapeCasts_S1x40x256_S40x256 : S1x40x256.ShapeCasts S40x256
  bitsLt_bf16_f32 : FTy.bits .bf16 < FTy.bits .f32
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  concatenates_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S1600x256_d0 : Shape.Concatenates (S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: S40x256 :: []) S1600x256 0
  slices_S40x256_o0_0_S1x256 : S40x256.Slices ![0, 0] S1x256
  shapeCasts_S1x256_S1x256 : S1x256.ShapeCasts S1x256
  broadcasts_S1x256_S40x256 : S1x256.Broadcasts S40x256
  slices_S40x256_o1_0_S1x256 : S40x256.Slices ![1, 0] S1x256
  slices_S40x256_o2_0_S1x256 : S40x256.Slices ![2, 0] S1x256
  slices_S40x256_o3_0_S1x256 : S40x256.Slices ![3, 0] S1x256
  slices_S40x256_o4_0_S1x256 : S40x256.Slices ![4, 0] S1x256
  slices_S40x256_o5_0_S1x256 : S40x256.Slices ![5, 0] S1x256
  slices_S40x256_o6_0_S1x256 : S40x256.Slices ![6, 0] S1x256
  slices_S40x256_o7_0_S1x256 : S40x256.Slices ![7, 0] S1x256
  slices_S40x256_o8_0_S1x256 : S40x256.Slices ![8, 0] S1x256
  slices_S40x256_o9_0_S1x256 : S40x256.Slices ![9, 0] S1x256
  slices_S40x256_o10_0_S1x256 : S40x256.Slices ![10, 0] S1x256
  slices_S40x256_o11_0_S1x256 : S40x256.Slices ![11, 0] S1x256
  slices_S40x256_o12_0_S1x256 : S40x256.Slices ![12, 0] S1x256
  slices_S40x256_o13_0_S1x256 : S40x256.Slices ![13, 0] S1x256
  slices_S40x256_o14_0_S1x256 : S40x256.Slices ![14, 0] S1x256
  slices_S40x256_o15_0_S1x256 : S40x256.Slices ![15, 0] S1x256
  slices_S40x256_o16_0_S1x256 : S40x256.Slices ![16, 0] S1x256
  slices_S40x256_o17_0_S1x256 : S40x256.Slices ![17, 0] S1x256
  slices_S40x256_o18_0_S1x256 : S40x256.Slices ![18, 0] S1x256
  slices_S40x256_o19_0_S1x256 : S40x256.Slices ![19, 0] S1x256
  slices_S40x256_o20_0_S1x256 : S40x256.Slices ![20, 0] S1x256
  slices_S40x256_o21_0_S1x256 : S40x256.Slices ![21, 0] S1x256
  slices_S40x256_o22_0_S1x256 : S40x256.Slices ![22, 0] S1x256
  slices_S40x256_o23_0_S1x256 : S40x256.Slices ![23, 0] S1x256
  slices_S40x256_o24_0_S1x256 : S40x256.Slices ![24, 0] S1x256
  slices_S40x256_o25_0_S1x256 : S40x256.Slices ![25, 0] S1x256
  slices_S40x256_o26_0_S1x256 : S40x256.Slices ![26, 0] S1x256
  slices_S40x256_o27_0_S1x256 : S40x256.Slices ![27, 0] S1x256
  slices_S40x256_o28_0_S1x256 : S40x256.Slices ![28, 0] S1x256
  slices_S40x256_o29_0_S1x256 : S40x256.Slices ![29, 0] S1x256
  slices_S40x256_o30_0_S1x256 : S40x256.Slices ![30, 0] S1x256
  slices_S40x256_o31_0_S1x256 : S40x256.Slices ![31, 0] S1x256
  slices_S40x256_o32_0_S1x256 : S40x256.Slices ![32, 0] S1x256
  slices_S40x256_o33_0_S1x256 : S40x256.Slices ![33, 0] S1x256
  slices_S40x256_o34_0_S1x256 : S40x256.Slices ![34, 0] S1x256
  slices_S40x256_o35_0_S1x256 : S40x256.Slices ![35, 0] S1x256
  slices_S40x256_o36_0_S1x256 : S40x256.Slices ![36, 0] S1x256
  slices_S40x256_o37_0_S1x256 : S40x256.Slices ![37, 0] S1x256
  slices_S40x256_o38_0_S1x256 : S40x256.Slices ![38, 0] S1x256
  slices_S40x256_o39_0_S1x256 : S40x256.Slices ![39, 0] S1x256
  inb_S768x512_S256x512_0_0 : ∀ a, (![0, 0] : Fin 2 → Nat) a + S256x512.size a ≤ S768x512.size a
  h_S256x512 : 0 < S256x512.numel
  inb_S768x512_S256x512_256_0 : ∀ a, (![256, 0] : Fin 2 → Nat) a + S256x512.size a ≤ S768x512.size a
  inb_S768x512_S256x512_512_0 : ∀ a, (![512, 0] : Fin 2 → Nat) a + S256x512.size a ≤ S768x512.size a
  broadcasts_S1x512_S1600x512 : S1x512.Broadcasts S1600x512
  inb_S512_S512_0 : ∀ a, (![0] : Fin 1 → Nat) a + S512.size a ≤ S512.size a
  h_S512 : 0 < S512.numel
  shapeCasts_S512_S1x512 : S512.ShapeCasts S1x512
  inb_S512x512_S512x512_0_0 : ∀ a, (![0, 0] : Fin 2 → Nat) a + S512x512.size a ≤ S512x512.size a
  h_S512x512 : 0 < S512x512.numel
  reduces_S1600x512_S512 : S1600x512.Reduces [0] S512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  shapeCasts_S1x256_S1x1x256 : S1x256.ShapeCasts S1x1x256
  shapeCasts_S32x1x256_S32x256 : S32x1x256.ShapeCasts S32x256
  dot_S1600x256_S256x512_S1600x512_1_0_0_1_n_n_wf : DotDims.WF S1600x256 S256x512 S1600x512 [1] [0] [0] [1] [] []
  dot_S1x256_S256x512_S1x512_1_0_0_1_n_n_wf : DotDims.WF S1x256 S256x512 S1x512 [1] [0] [0] [1] [] []
  dot_S1600x512_S512x512_S1600x512_1_0_0_1_n_n_wf : DotDims.WF S1600x512 S512x512 S1600x512 [1] [0] [0] [1] [] []
  dot_S1x512_S512x512_S1x512_1_0_0_1_n_n_wf : DotDims.WF S1x512 S512x512 S1x512 [1] [0] [0] [1] [] []
  dot_S1x512_S512x256_S1x256_1_0_0_1_n_n_wf : DotDims.WF S1x512 S512x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x40x256.size a ≤ S32x40x256.size a
  hwx0_0 : ∀ i : grid0.Coords, EltTy.bits .f32 = 32 ∨ (Rect.block (s := S32x40x256) S1x40x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x256.size a ≤ S32x1x256.size a
  hwx0_1 : ∀ i : grid0.Coords, EltTy.bits .f32 = 32 ∨ (Rect.block (s := S32x1x256) S1x1x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x512.size a ≤ S768x512.size a
  hwx0_2 : ∀ i : grid0.Coords, EltTy.bits .f32 = 32 ∨ (Rect.block (s := S768x512) S768x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .f32 = 32 ∨ (Rect.block (s := S512x512) S512x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S512x512.size a
  hwx0_8 : ∀ i : grid0.Coords, EltTy.bits .f32 = 32 ∨ (Rect.block (s := S512x512) S512x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S512x256.size a
  hwx0_10 : ∀ i : grid0.Coords, EltTy.bits .f32 = 32 ∨ (Rect.block (s := S512x256) S512x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x256.size a ≤ S32x1x256.size a
  hwx0_12 : ∀ i : grid0.Coords, EltTy.bits .f32 = 32 ∨ (Rect.block (s := S32x1x256) S1x1x256.size (cc0_transform_12 i) (hinb0_12 i)).WholeWords (EltTy.packing .f32)

variable [Facts₀]

def dot_S1600x256_S256x512_S1600x512_1_0_0_1_n_n : DotDims S1600x256 S256x512 S1600x512 where
  lhsContracting := [1]
  rhsContracting := [0]
  lhsNonContracting := [0]
  rhsNonContracting := [1]
  lhsBatch := []
  rhsBatch := []
  wf := dot_S1600x256_S256x512_S1600x512_1_0_0_1_n_n_wf
def dot_S1x256_S256x512_S1x512_1_0_0_1_n_n : DotDims S1x256 S256x512 S1x512 where
  lhsContracting := [1]
  rhsContracting := [0]
  lhsNonContracting := [0]
  rhsNonContracting := [1]
  lhsBatch := []
  rhsBatch := []
  wf := dot_S1x256_S256x512_S1x512_1_0_0_1_n_n_wf
def dot_S1600x512_S512x512_S1600x512_1_0_0_1_n_n : DotDims S1600x512 S512x512 S1600x512 where
  lhsContracting := [1]
  rhsContracting := [0]
  lhsNonContracting := [0]
  rhsNonContracting := [1]
  lhsBatch := []
  rhsBatch := []
  wf := dot_S1600x512_S512x512_S1600x512_1_0_0_1_n_n_wf
def dot_S1x512_S512x512_S1x512_1_0_0_1_n_n : DotDims S1x512 S512x512 S1x512 where
  lhsContracting := [1]
  rhsContracting := [0]
  lhsNonContracting := [0]
  rhsNonContracting := [1]
  lhsBatch := []
  rhsBatch := []
  wf := dot_S1x512_S512x512_S1x512_1_0_0_1_n_n_wf
def dot_S1x512_S512x256_S1x256_1_0_0_1_n_n : DotDims S1x512 S512x256 S1x256 where
  lhsContracting := [1]
  rhsContracting := [0]
  lhsNonContracting := [0]
  rhsNonContracting := [1]
  lhsBatch := []
  rhsBatch := []
  wf := dot_S1x512_S512x256_S1x256_1_0_0_1_n_n_wf

abbrev win0_0 : Pipeline.Window sig grid0 :=
  Pipeline.Window.ofSpec (Memref.whole main_arg0) S1x40x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S768x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v1) S1x1x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32x40x256 : Shape := ⟨3, ![32, 40, 256]⟩
abbrev S32x256 : Shape := ⟨2, ![32, 256]⟩
abbrev S768x512 : Shape := ⟨2, ![768, 512]⟩
abbrev S512 : Shape := ⟨1, ![512]⟩
abbrev S512x512 : Shape := ⟨2, ![512, 512]⟩
abbrev S512x256 : Shape := ⟨2, ![512, 256]⟩
abbrev S256 : Shape := ⟨1, ![256]⟩
abbrev S1x32x1x40x1x256 : Shape := ⟨6, ![1, 32, 1, 40, 1, 256]⟩
abbrev S1x32x40x40x1x256 : Shape := ⟨6, ![1, 32, 40, 40, 1, 256]⟩
abbrev S32x1600x256 : Shape := ⟨3, ![32, 1600, 256]⟩
abbrev S32x40x40x256 : Shape := ⟨4, ![32, 40, 40, 256]⟩
abbrev S32x1x256 : Shape := ⟨3, ![32, 1, 256]⟩
abbrev S32x1600x768 : Shape := ⟨3, ![32, 1600, 768]⟩
abbrev S32x1600x512 : Shape := ⟨3, ![32, 1600, 512]⟩
abbrev S1x1x512 : Shape := ⟨3, ![1, 1, 512]⟩
abbrev S_ : Shape := ⟨0, ![]⟩
abbrev S32x512 : Shape := ⟨2, ![32, 512]⟩
abbrev S1x512 : Shape := ⟨2, ![1, 512]⟩
abbrev S1x256 : Shape := ⟨2, ![1, 256]⟩

abbrev nBuf : Space → Nat
  | .hbm => 57
  | .vmem => 0
  | .smem => 0
  | _ => 0

abbrev bufTy : (tb : Table) → Fin (tcTables nBuf tb) → BufTy
  | .hbm, ⟨0, _⟩ => ⟨S32x40x256, .f32⟩
  | .hbm, ⟨1, _⟩ => ⟨S32x256, .f32⟩
  | .hbm, ⟨2, _⟩ => ⟨S768x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x256, .f32⟩
  | .hbm, ⟨11, _⟩ => ⟨S256, .f32⟩
  | .hbm, ⟨12, _⟩ => ⟨S1x32x1x40x1x256, .f32⟩
  | .hbm, ⟨13, _⟩ => ⟨S1x32x40x40x1x256, .f32⟩
  | .hbm, ⟨14, _⟩ => ⟨S32x1600x256, .f32⟩
  | .hbm, ⟨15, _⟩ => ⟨S32x40x40x256, .f32⟩
  | .hbm, ⟨16, _⟩ => ⟨S32x1600x256, .f32⟩
  | .hbm, ⟨17, _⟩ => ⟨S32x1x256, .f32⟩
  | .hbm, ⟨18, _⟩ => ⟨S32x1600x256, .f32⟩
  | .hbm, ⟨19, _⟩ => ⟨S32x1600x768, .f32⟩
  | .hbm, ⟨20, _⟩ => ⟨S32x1600x512, .f32⟩
  | .hbm, ⟨21, _⟩ => ⟨S1x1x512, .f32⟩
  | .hbm, ⟨22, _⟩ => ⟨S32x1600x512, .f32⟩
  | .hbm, ⟨23, _⟩ => ⟨S32x1600x512, .f32⟩
  | .hbm, ⟨24, _⟩ => ⟨S_, .f32⟩
  | .hbm, ⟨25, _⟩ => ⟨S32x1600x512, .f32⟩
  | .hbm, ⟨26, _⟩ => ⟨S32x1600x512, .f32⟩
  | .hbm, ⟨27, _⟩ => ⟨S32x1600x512, .f32⟩
  | .hbm, ⟨28, _⟩ => ⟨S1x1x512, .f32⟩
  | .hbm, ⟨29, _⟩ => ⟨S32x1600x512, .f32⟩
  | .hbm, ⟨30, _⟩ => ⟨S32x1600x512, .f32⟩
  | .hbm, ⟨31, _⟩ => ⟨S_, .f32⟩
  | .hbm, ⟨32, _⟩ => ⟨S32x1600x512, .f32⟩
  | .hbm, ⟨33, _⟩ => ⟨S32x1600x512, .f32⟩
  | .hbm, ⟨34, _⟩ => ⟨S32x1600x512, .f32⟩
  | .hbm, ⟨35, _⟩ => ⟨S1x1x512, .f32⟩
  | .hbm, ⟨36, _⟩ => ⟨S32x1600x512, .f32⟩
  | .hbm, ⟨37, _⟩ => ⟨S32x1600x512, .f32⟩
  | .hbm, ⟨38, _⟩ => ⟨S_, .f32⟩
  | .hbm, ⟨39, _⟩ => ⟨S32x1600x512, .f32⟩
  | .hbm, ⟨40, _⟩ => ⟨S32x1600x512, .f32⟩
  | .hbm, ⟨41, _⟩ => ⟨S_, .f32⟩
  | .hbm, ⟨42, _⟩ => ⟨S32x512, .f32⟩
  | .hbm, ⟨43, _⟩ => ⟨S32x512, .f32⟩
  | .hbm, ⟨44, _⟩ => ⟨S1x512, .f32⟩
  | .hbm, ⟨45, _⟩ => ⟨S32x512, .f32⟩
  | .hbm, ⟨46, _⟩ => ⟨S32x512, .f32⟩
  | .hbm, ⟨47, _⟩ => ⟨S_, .f32⟩
  | .hbm, ⟨48, _⟩ => ⟨S32x512, .f32⟩
  | .hbm, ⟨49, _⟩ => ⟨S32x512, .f32⟩
  | .hbm, ⟨50, _⟩ => ⟨S32x256, .f32⟩
  | .hbm, ⟨51, _⟩ => ⟨S1x256, .f32⟩
  | .hbm, ⟨52, _⟩ => ⟨S32x256, .f32⟩
  | .hbm, ⟨53, _⟩ => ⟨S32x256, .f32⟩
  | .hbm, ⟨54, _⟩ => ⟨S_, .f32⟩
  | .hbm, ⟨55, _⟩ => ⟨S32x256, .f32⟩
  | .hbm, ⟨56, _⟩ => ⟨S32x256, .f32⟩
  | _, _ => ⟨S32x40x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call0_cst : Ref sig .tc := ⟨.hbm, 24, rfl⟩
abbrev main_call0_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call1_cst : Ref sig .tc := ⟨.hbm, 31, rfl⟩
abbrev main_call1_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call2_cst : Ref sig .tc := ⟨.hbm, 38, rfl⟩
abbrev main_call2_v0 : Ref sig .tc := ⟨.hbm, 39, rfl⟩
abbrev main_v22 : Ref sig .tc := ⟨.hbm, 40, rfl⟩
abbrev main_cst : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call3_cst : Ref sig .tc := ⟨.hbm, 47, rfl⟩
abbrev main_call3_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call4_cst : Ref sig .tc := ⟨.hbm, 54, rfl⟩
abbrev main_call4_v0 : Ref sig .tc := ⟨.hbm, 55, rfl⟩
abbrev main_v33 : Ref sig .tc := ⟨.hbm, 56, rfl⟩

abbrev nD : Nat := 1
abbrev τ : Topo := Topo.v7x

variable {F : FTy → Type} [FloatOps F]

class Facts₀ : Prop where
  shapeCasts_S32x40x256_S1x32x1x40x1x256 : S32x40x256.ShapeCasts S1x32x1x40x1x256
  bcast_S1x32x1x40x1x256_S1x32x40x40x1x256_0_1_2_3_4_5 : S1x32x1x40x1x256.BroadcastsInDim S1x32x40x40x1x256 (![0, 1, 2, 3, 4, 5] : Fin 6 → Fin S1x32x40x40x1x256.rank)
  shapeCasts_S1x32x40x40x1x256_S32x1600x256 : S1x32x40x40x1x256.ShapeCasts S32x1600x256
  bcast_S32x40x256_S32x40x40x256_0_1_3 : S32x40x256.BroadcastsInDim S32x40x40x256 (![0, 1, 3] : Fin 3 → Fin S32x40x40x256.rank)
  shapeCasts_S32x40x40x256_S32x1600x256 : S32x40x40x256.ShapeCasts S32x1600x256
  bcast_S32x256_S32x1x256_0_2 : S32x256.BroadcastsInDim S32x1x256 (![0, 2] : Fin 2 → Fin S32x1x256.rank)
  bcast_S32x1x256_S32x1600x256_0_1_2 : S32x1x256.BroadcastsInDim S32x1600x256 (![0, 1, 2] : Fin 3 → Fin S32x1600x256.rank)
  concatenates_S32x1600x256_S32x1600x256_S32x1600x256_S32x1600x768_d2 : Shape.Concatenates [S32x1600x256, S32x1600x256, S32x1600x256] S32x1600x768 2
  bcast_S512_S1x1x512_2 : S512.BroadcastsInDim S1x1x512 (![2] : Fin 1 → Fin S1x1x512.rank)
  bcast_S1x1x512_S32x1600x512_0_1_2 : S1x1x512.BroadcastsInDim S32x1600x512 (![0, 1, 2] : Fin 3 → Fin S32x1600x512.rank)
  bcast_S_S32x1600x512 : S_.BroadcastsInDim S32x1600x512 (![] : Fin 0 → Fin S32x1600x512.rank)
  reducesTo_S32x1600x512_S32x512_d1 : S32x1600x512.ReducesTo [1] S32x512
  h_S_ : 0 < S_.numel
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  bcast_S256_S1x256_1 : S256.BroadcastsInDim S1x256 (![1] : Fin 1 → Fin S1x256.rank)
  bcast_S1x256_S32x256_0_1 : S1x256.BroadcastsInDim S32x256 (![0, 1] : Fin 2 → Fin S32x256.rank)
  bcast_S_S32x256 : S_.BroadcastsInDim S32x256 (![] : Fin 0 → Fin S32x256.rank)
  dot_S32x1600x768_S768x512_S32x1600x512_2_0_01_1_n_n_wf : DotDims.WF S32x1600x768 S768x512 S32x1600x512 [2] [0] [0, 1] [1] [] []
  dot_S32x1600x512_S512x512_S32x1600x512_2_0_01_1_n_n_wf : DotDims.WF S32x1600x512 S512x512 S32x1600x512 [2] [0] [0, 1] [1] [] []
  dot_S32x512_S512x512_S32x512_1_0_0_1_n_n_wf : DotDims.WF S32x512 S512x512 S32x512 [1] [0] [0] [1] [] []
  dot_S32x512_S512x256_S32x256_1_0_0_1_n_n_wf : DotDims.WF S32x512 S512x256 S32x256 [1] [0] [0] [1] [] []

variable [Facts₀]

def dot_S32x1600x768_S768x512_S32x1600x512_2_0_01_1_n_n : DotDims S32x1600x768 S768x512 S32x1600x512 where
  lhsContracting := [2]
  rhsContracting := [0]
  lhsNonContracting := [0, 1]
  rhsNonContracting := [1]
  lhsBatch := []
  rhsBatch := []
  wf := dot_S32x1600x768_S768x512_S32x1600x512_2_0_01_1_n_n_wf
def dot_S32x1600x512_S512x512_S32x1600x512_2_0_01_1_n_n : DotDims S32x1600x512 S512x512 S32x1600x512 where
  lhsContracting := [2]
  rhsContracting := [0]
  lhsNonContracting := [0, 1]
  rhsNonContracting := [1]
  lhsBatch := []
  rhsBatch := []
  wf := dot_S32x1600x512_S512x512_S32x1600x512_2_0_01_1_n_n_wf
def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S32x512_S512x256_S32x256_1_0_0_1_n_n : DotDims S32x512 S512x256 S32x256 where
  lhsContracting := [1]
  rhsContracting := [0]
  lhsNonContracting := [0]
  rhsNonContracting := [1]
  lhsBatch := []
  rhsBatch := []
  wf := dot_S32x512_S512x256_S32x256_1_0_0_1_n_n_wf

class Facts : Prop extends Facts₀ where

variable [Facts]
-- ==== Proof.PairNet.lean ====
/-
  The relation network that both programs compute, written once as a function of the twelve argument arrays over
  the extended reals, entry by entry.

  For a batch b the network forms all 1600 ordered pairs of the 40 rows of x[b]: pair p puts row (p mod 40)
  beside row (p div 40) and the question vector q[b]. A three-layer rectified perceptron maps every pair to 512
  numbers; these are summed over the 1600 pairs; a two-layer rectified perceptron maps the sum to the 256 outputs.

  The first layer's weight has 768 rows, one block of 256 for each of the three parts of a pair, so its product
  with a pair is the sum of three products of 256 terms each. The only law used to pass between the one sum of 768
  terms and the three sums of 256 is the splitting of a finite sum over consecutive blocks (sum_three_blocks), valid
  in every commutative additive monoid: on the extended reals it needs no finiteness of the entries.
-/
import Idealize.ShloMosaic.Lib.ValueIdx
import Idealize.ShloMosaic.PureOps.Ideal.Laws

noncomputable section

open scoped BigOperators

namespace Cert.PairNet

open Idealize.ShloMosaic Idealize.ShloMosaic.ValueIdx

/-- The rectifier: the larger of a value and zero, zero spelt as the float format's zero word. -/
def relu (a : EReal) : EReal := max a (Ideal.ofBits .f32 0x00000000#32)

/-- One rectified dense unit: relu (sum over k of a k * w[k, h], plus bias[h]). -/
def dense {K N : Nat} (a : Fin K → EReal) (w : (⟨2, ![K, N]⟩ : Shape).Idx → EReal)
    (bias : (⟨1, ![N]⟩ : Shape).Idx → EReal) (h : Fin N) : EReal :=
  relu (∑ k : Fin K, a k * w (ix2 k h) + bias (ix1 h))

/-- The row of x[b] that pair p carries in its first part: p mod 40. -/
def lrow (p : Fin 1600) : Fin 40 := ⟨p.val % 40, Nat.mod_lt _ (by decide)⟩

/-- The row of x[b] that pair p carries in its second part: p div 40. -/
def rrow (p : Fin 1600) : Fin 40 := ⟨p.val / 40, by have := p.isLt; omega⟩

/-- Row k of the first, second and third block of 256 rows of a 768-row matrix. -/
def blk0 (k : Fin 256) : Fin 768 := ⟨k.val, by have := k.isLt; omega⟩
def blk1 (k : Fin 256) : Fin 768 := ⟨256 + k.val, by have := k.isLt; omega⟩
def blk2 (k : Fin 256) : Fin 768 := ⟨512 + k.val, by have := k.isLt; omega⟩

/-- A sum over 768 consecutive terms is the sum of its three blocks of 256. -/
theorem sum_three_blocks {M : Type*} [AddCommMonoid M] (f : Fin 768 → M) :
    ∑ k : Fin 768, f k = ∑ k : Fin 256, f (blk0 k) + ∑ k : Fin 256, f (blk1 k) + ∑ k : Fin 256, f (blk2 k) := by
  have e : (256 + 256) + 256 = 768 := rfl
  rw [← Fin.sum_congr' f e, Fin.sum_univ_add, Fin.sum_univ_add]
  refine congrArg₂ (· + ·) (congrArg₂ (· + ·) ?_ ?_) ?_
  · exact Finset.sum_congr rfl fun k _ => congrArg f (Fin.ext rfl)
  · exact Finset.sum_congr rfl fun k _ => congrArg f (Fin.ext rfl)
  · exact Finset.sum_congr rfl fun k _ => congrArg f (Fin.ext rfl)

section Network

variable (x : (⟨3, ![32, 40, 256]⟩ : Shape).Idx → EReal) (q : (⟨2, ![32, 256]⟩ : Shape).Idx → EReal)
  (w0 : (⟨2, ![768, 512]⟩ : Shape).Idx → EReal) (b0 : (⟨1, ![512]⟩ : Shape).Idx → EReal)
  (w1 : (⟨2, ![512, 512]⟩ : Shape).Idx → EReal) (b1 : (⟨1, ![512]⟩ : Shape).Idx → EReal)
  (w2 : (⟨2, ![512, 512]⟩ : Shape).Idx → EReal) (b2 : (⟨1, ![512]⟩ : Shape).Idx → EReal)
  (u0 : (⟨2, ![512, 512]⟩ : Shape).Idx → EReal) (c0 : (⟨1, ![512]⟩ : Shape).Idx → EReal)
  (u1 : (⟨2, ![512, 256]⟩ : Shape).Idx → EReal) (c1 : (⟨1, ![256]⟩ : Shape).Idx → EReal)

/-- First layer on pair p of batch b: the three parts of the pair against the three row blocks of the weight. -/
def hid0 (b : Fin 32) (p : Fin 1600) (h : Fin 512) : EReal :=
  relu ((∑ k : Fin 256, x (ix3 b (lrow p) k) * w0 (ix2 (blk0 k) h)
        + ∑ k : Fin 256, x (ix3 b (rrow p) k) * w0 (ix2 (blk1 k) h)
        + ∑ k : Fin 256, q (ix2 b k) * w0 (ix2 (blk2 k) h)) + b0 (ix1 h))

/-- Second and third layer on the pair. -/
def hid1 (b : Fin 32) (p : Fin 1600) : Fin 512 → EReal := dense (hid0 x q w0 b0 b p) w1 b1
def rel (b : Fin 32) (p : Fin 1600) : Fin 512 → EReal := dense (hid1 x q w0 b0 w1 b1 b p) w2 b2

/-- The pairs' relations summed over all 1600 pairs of the batch. -/
def pooled (b : Fin 32) (o : Fin 512) : EReal := ∑ p : Fin 1600, rel x q w0 b0 w1 b1 w2 b2 b p o

/-- The two layers applied to the pooled relations. -/
def top0 (b : Fin 32) : Fin 512 → EReal := dense (pooled x q w0 b0 w1 b1 w2 b2 b) u0 c0
def top1 (b : Fin 32) : Fin 256 → EReal := dense (top0 x q w0 b0 w1 b1 w2 b2 u0 c0 b) u1 c1

/-- The network's result array [32, 256]. -/
def result : (⟨2, ![32, 256]⟩ : Shape).Idx → EReal :=
  fun i => top1 x q w0 b0 w1 b1 w2 b2 u0 c0 u1 c1 (i 0) (i 1)

end Network

end Cert.PairNet

end
-- ==== Proof.RefValue.lean ====
/-
  The reference's array is the relation network of PairNet, entry by entry.

  Bottom up. Pair p of batch b has three parts of 256 numbers. The tiled copy of x holds x[b, p mod 40, ·] and the
  repeated copy holds x[b, p div 40, ·]: both follow from row-major positions, p = 40 (p div 40) + (p mod 40), the
  copied axis being the one of p div 40 in the first and the one of p mod 40 in the second. The third part is q[b, ·],
  the same for every pair. Side by side the parts are the columns 0..255, 256..511 and 512..767 of the pair.
  Every dense layer is a finite sum read at coordinates. The first layer's sum over the 768 columns is split into its
  three blocks of 256 (PairNet.sum_three_blocks), the only law used; it holds in every commutative additive monoid, so
  no entry need be finite. The sum over the 1600 pairs starts from the format's zero word, the extended real 0.
-/
import proofs.«133592_j43001212567988_1_alg».proof.Proof.Gen.ReferenceIdeal.Read
import proofs.«133592_j43001212567988_1_alg».proof.Proof.PairNet
import Idealize.ShloMosaic.Lib.ValueIdxRank6

noncomputable section
open scoped BigOperators
namespace Cert.ReferenceIdeal.RefValue
open Cert.ReferenceIdeal Cert.ReferenceIdeal.Gen Idealize.ShloMosaic Idealize.ShloMosaic.TcCoe Idealize.ShloMosaic.ValueIdx

section Layers

variable (x0 : (⟨S32x40x256, .f32⟩ : BufTy).Contents (Elt Ideal)) (x1 : (⟨S32x256, .f32⟩ : BufTy).Contents (Elt Ideal))
    (x2 : (⟨S768x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal))
    (x10 : (⟨S512x256, .f32⟩ : BufTy).Contents (Elt Ideal)) (x11 : (⟨S256, .f32⟩ : BufTy).Contents (Elt Ideal))

/-! ## The three parts of a pair, read at coordinates -/

/-- The rank-6 view of x keeps every entry: position (0, b, 0, r, 0, d) holds x[b, r, d]. -/
theorem v0_at (b : Fin 32) (r : Fin 40) (d : Fin 256) :
    Read.val_main_v0 (F := Ideal) x0 (ix6 (0 : Fin 1) b (0 : Fin 1) r (0 : Fin 1) d) = x0 (ix3 b r d) := by
  unfold Read.val_main_v0
  refine shapeCast_apply x0 _ _ (ix3 b r d) ?_
  rw [Shape.rowMajor_val_three, Shape.rowMajor_val_six]
  show (b.val * 40 + r.val) * 256 + d.val = ((((0 * 32 + b.val) * 1 + 0) * 40 + r.val) * 1 + 0) * 256 + d.val
  omega

/-- The tiled part: entry (b, p, d) is x[b, p mod 40, d]. Row-major, p = 40 * (p div 40) + (p mod 40), and the
    broadcast axis is the one of p div 40. -/
theorem v2_at (b : Fin 32) (p : Fin 1600) (d : Fin 256) :
    Read.val_main_v2 (F := Ideal) x0 (ix3 b p d) = x0 (ix3 b (PairNet.lrow p) d) := by
  unfold Read.val_main_v2
  rw [shapeCast_apply (Read.val_main_v1 (F := Ideal) x0) _ (ix3 b p d)
    (ix6 (0 : Fin 1) b (PairNet.rrow p) (PairNet.lrow p) (0 : Fin 1) d) (by
      rw [Shape.rowMajor_val_three, Shape.rowMajor_val_six]
      show ((((0 * 32 + b.val) * 40 + p.val / 40) * 40 + p.val % 40) * 1 + 0) * 256 + d.val = (b.val * 1600 + p.val) * 256 + d.val
      have := p.isLt
      omega)]
  rw [Read.val_main_v1_apply]
  rw [show Read.idx_main_v1 (ix6 (0 : Fin 1) b (PairNet.rrow p) (PairNet.lrow p) (0 : Fin 1) d)
      = ix6 (0 : Fin 1) b (0 : Fin 1) (PairNet.lrow p) (0 : Fin 1) d from
    funext fun a => by match a with | ⟨0, _⟩ => rfl | ⟨1, _⟩ => rfl | ⟨2, _⟩ => rfl | ⟨3, _⟩ => rfl | ⟨4, _⟩ => rfl | ⟨5, _⟩ => rfl]
  exact v0_at x0 b (PairNet.lrow p) d

/-- The repeated part: entry (b, p, d) is x[b, p div 40, d]. -/
theorem v4_at (b : Fin 32) (p : Fin 1600) (d : Fin 256) :
    Read.val_main_v4 (F := Ideal) x0 (ix3 b p d) = x0 (ix3 b (PairNet.rrow p) d) := by
  rw [Read.val_main_v4_apply, Read.val_main_v3_apply]
  refine congrArg x0 (funext fun a => Fin.ext ?_)
  have hb := b.isLt
  have hp := p.isLt
  have hd := d.isLt
  match a with
  | ⟨0, _⟩ => show ((b.val * 1600 + p.val) * 256 + d.val) / 409600 = b.val; omega
  | ⟨1, _⟩ => show ((b.val * 1600 + p.val) * 256 + d.val) / 10240 % 40 = p.val / 40; omega
  | ⟨2, _⟩ => show ((b.val * 1600 + p.val) * 256 + d.val) % 256 = d.val; omega

/-- The question part: entry (b, p, d) is q[b, d], the same for every pair. -/
theorem v6_at (b : Fin 32) (p : Fin 1600) (d : Fin 256) :
    Read.val_main_v6 (F := Ideal) x1 (ix3 b p d) = x1 (ix2 b d) := by
  rw [Read.val_main_v6_apply, Read.val_main_v5_apply]
  exact congrArg x1 (funext fun a => by match a with | ⟨0, _⟩ => rfl | ⟨1, _⟩ => rfl)

/-! ## The pair, the three parts laid side by side -/

/-- Column k of the first block of the pair (b, p) is the tiled part. -/
theorem v7_blk0 (b : Fin 32) (p : Fin 1600) (k : Fin 256) :
    Read.val_main_v7 (F := Ideal) x0 x1 (ix3 b p (PairNet.blk0 k)) = x0 (ix3 b (PairNet.lrow p) k) := by
  unfold Read.val_main_v7
  rw [concatenate_apply_piece (2 : Fin 3) _ _ (ix3 b p (PairNet.blk0 k)) 0 (by show 0 < 3; omega) S32x1600x256
    (Read.val_main_v2 (F := Ideal) x0) rfl rfl 0 rfl (ix3 b p k)
    (fun c hc => by match c with | ⟨0, _⟩ => rfl | ⟨1, _⟩ => rfl | ⟨2, _⟩ => exact absurd rfl hc)
    (by show 0 + k.val = k.val; omega)]
  exact v2_at x0 b p k

/-- Column k of the second block is the repeated part. -/
theorem v7_blk1 (b : Fin 32) (p : Fin 1600) (k : Fin 256) :
    Read.val_main_v7 (F := Ideal) x0 x1 (ix3 b p (PairNet.blk1 k)) = x0 (ix3 b (PairNet.rrow p) k) := by
  unfold Read.val_main_v7
  rw [concatenate_apply_piece (2 : Fin 3) _ _ (ix3 b p (PairNet.blk1 k)) 1 (by show 1 < 3; omega) S32x1600x256
    (Read.val_main_v4 (F := Ideal) x0) rfl rfl 256 rfl (ix3 b p k)
    (fun c hc => by match c with | ⟨0, _⟩ => rfl | ⟨1, _⟩ => rfl | ⟨2, _⟩ => exact absurd rfl hc)
    rfl]
  exact v4_at x0 b p k

/-- Column k of the third block is the question part. -/
theorem v7_blk2 (b : Fin 32) (p : Fin 1600) (k : Fin 256) :
    Read.val_main_v7 (F := Ideal) x0 x1 (ix3 b p (PairNet.blk2 k)) = x1 (ix2 b k) := by
  unfold Read.val_main_v7
  rw [concatenate_apply_piece (2 : Fin 3) _ _ (ix3 b p (PairNet.blk2 k)) 2 (by show 2 < 3; omega) S32x1600x256
    (Read.val_main_v6 (F := Ideal) x1) rfl rfl 512 rfl (ix3 b p k)
    (fun c hc => by match c with | ⟨0, _⟩ => rfl | ⟨1, _⟩ => rfl | ⟨2, _⟩ => exact absurd rfl hc)
    rfl]
  exact v6_at x1 b p k

/-! ## The perceptron on a pair -/

/-- First layer: the 768-term product splits into the three blocks' products, in the order first, second, third. -/
theorem v12_at (b : Fin 32) (p : Fin 1600) (h : Fin 512) :
    Read.val_main_v12 (F := Ideal) x0 x1 x2 x3 (ix3 b p h) = PairNet.hid0 x0 x1 x2 x3 b p h := by
  rw [Read.val_main_v12_apply, Read.val_main_v11_apply, Read.val_main_v8_apply, Read.val_main_v10_apply,
    Read.val_main_v9_apply, Read.val_main_call0_v0_apply, Read.val_main_call0_cst_apply, PairNet.sum_three_blocks]
  have hl : ∀ k : Fin 768, Read.lidx_main_v8 (ix3 b p h) k = ix3 b p k := fun k =>
    funext fun a => by match a with | ⟨0, _⟩ => rfl | ⟨1, _⟩ => rfl | ⟨2, _⟩ => rfl
  have hr : ∀ k : Fin 768, Read.ridx_main_v8 (ix3 b p h) k = ix2 k h := fun k =>
    funext fun a => by match a with | ⟨0, _⟩ => rfl | ⟨1, _⟩ => rfl
  have hb : Read.idx_main_v9 (Read.idx_main_v10 (ix3 b p h)) = ix1 h :=
    funext fun a => by match a with | ⟨0, _⟩ => rfl
  have e0 : ∀ k : Fin 256, Read.val_main_v7 (F := Ideal) x0 x1 (Read.lidx_main_v8 (ix3 b p h) (PairNet.blk0 k)) * x2 (Read.ridx_main_v8 (ix3 b p h) (PairNet.blk0 k))
      = x0 (ix3 b (PairNet.lrow p) k) * x2 (ix2 (PairNet.blk0 k) h) := fun k => by rw [hl, hr, v7_blk0]
  have e1 : ∀ k : Fin 256, Read.val_main_v7 (F := Ideal) x0 x1 (Read.lidx_main_v8 (ix3 b p h) (PairNet.blk1 k)) * x2 (Read.ridx_main_v8 (ix3 b p h) (PairNet.blk1 k))
      = x0 (ix3 b (PairNet.rrow p) k) * x2 (ix2 (PairNet.blk1 k) h) := fun k => by rw [hl, hr, v7_blk1]
  have e2 : ∀ k : Fin 256, Read.val_main_v7 (F := Ideal) x0 x1 (Read.lidx_main_v8 (ix3 b p h) (PairNet.blk2 k)) * x2 (Read.ridx_main_v8 (ix3 b p h) (PairNet.blk2 k))
      = x1 (ix2 b k) * x2 (ix2 (PairNet.blk2 k) h) := fun k => by rw [hl, hr, v7_blk2]
  rw [Finset.sum_congr rfl fun k _ => e0 k, Finset.sum_congr rfl fun k _ => e1 k, Finset.sum_congr rfl fun k _ => e2 k, hb]
  rfl

/-- Second layer. -/
theorem v17_at (b : Fin 32) (p : Fin 1600) (h : Fin 512) :
    Read.val_main_v17 (F := Ideal) x0 x1 x2 x3 x4 x5 (ix3 b p h) = PairNet.hid1 x0 x1 x2 x3 x4 x5 b p h := by
  rw [Read.val_main_v17_apply, Read.val_main_v16_apply, Read.val_main_v13_apply, Read.val_main_v15_apply,
    Read.val_main_v14_apply, Read.val_main_call1_v0_apply, Read.val_main_call1_cst_apply]
  have hl : ∀ k : Fin 512, Read.lidx_main_v13 (ix3 b p h) k = ix3 b p k := fun k =>
    funext fun a => by match a with | ⟨0, _⟩ => rfl | ⟨1, _⟩ => rfl | ⟨2, _⟩ => rfl
  have hr : ∀ k : Fin 512, Read.ridx_main_v13 (ix3 b p h) k = ix2 k h := fun k =>
    funext fun a => by match a with | ⟨0, _⟩ => rfl | ⟨1, _⟩ => rfl
  have hb : Read.idx_main_v14 (Read.idx_main_v15 (ix3 b p h)) = ix1 h :=
    funext fun a => by match a with | ⟨0, _⟩ => rfl
  have e : ∀ k : Fin 512, Read.val_main_v12 (F := Ideal) x0 x1 x2 x3 (Read.lidx_main_v13 (ix3 b p h) k) * x4 (Read.ridx_main_v13 (ix3 b p h) k)
      = PairNet.hid0 x0 x1 x2 x3 b p k * x4 (ix2 k h) := fun k => by rw [hl, hr, v12_at]
  rw [Finset.sum_congr rfl fun k _ => e k, hb]
  rfl

/-- Third layer: the relation of the pair. -/
theorem v22_at (b : Fin 32) (p : Fin 1600) (h : Fin 512) :
    Read.val_main_v22 (F := Ideal) x0 x1 x2 x3 x4 x5 x6 x7 (ix3 b p h) = PairNet.rel x0 x1 x2 x3 x4 x5 x6 x7 b p h := by
  rw [Read.val_main_v22_apply, Read.val_main_v21_apply, Read.val_main_v18_apply, Read.val_main_v20_apply,
    Read.val_main_v19_apply, Read.val_main_call2_v0_apply, Read.val_main_call2_cst_apply]
  have hl : ∀ k : Fin 512, Read.lidx_main_v18 (ix3 b p h) k = ix3 b p k := fun k =>
    funext fun a => by match a with | ⟨0, _⟩ => rfl | ⟨1, _⟩ => rfl | ⟨2, _⟩ => rfl
  have hr : ∀ k : Fin 512, Read.ridx_main_v18 (ix3 b p h) k = ix2 k h := fun k =>
    funext fun a => by match a with | ⟨0, _⟩ => rfl | ⟨1, _⟩ => rfl
  have hb : Read.idx_main_v19 (Read.idx_main_v20 (ix3 b p h)) = ix1 h :=
    funext fun a => by match a with | ⟨0, _⟩ => rfl
  have e : ∀ k : Fin 512, Read.val_main_v17 (F := Ideal) x0 x1 x2 x3 x4 x5 (Read.lidx_main_v18 (ix3 b p h) k) * x6 (Read.ridx_main_v18 (ix3 b p h) k)
      = PairNet.hid1 x0 x1 x2 x3 x4 x5 b p k * x6 (ix2 k h) := fun k => by rw [hl, hr, v17_at]
  rw [Finset.sum_congr rfl fun k _ => e k, hb]
  rfl

/-! ## The sum over the pairs and the two top layers -/

/-- The relations summed over the 1600 pairs; the sum starts from the zero word, which is the extended real 0. -/
theorem v23_at (b : Fin 32) (o : Fin 512) :
    Read.val_main_v23 (F := Ideal) x0 x1 x2 x3 x4 x5 x6 x7 (ix2 b o) = PairNet.pooled x0 x1 x2 x3 x4 x5 x6 x7 b o := by
  rw [Read.val_main_v23_apply, Read.val_main_cst_apply]
  have hi : ∀ k : Fin 1600, Read.idx_main_v23 (ix2 b o) k = ix3 b k o := fun k =>
    funext fun a => by match a with | ⟨0, _⟩ => rfl | ⟨1, _⟩ => rfl | ⟨2, _⟩ => rfl
  have e : ∀ k : Fin 1600, Read.val_main_v22 (F := Ideal) x0 x1 x2 x3 x4 x5 x6 x7 (Read.idx_main_v23 (ix2 b o) k)
      = PairNet.rel x0 x1 x2 x3 x4 x5 x6 x7 b k o := fun k => by rw [hi, v22_at]
  rw [Finset.sum_congr rfl fun k _ => e k]
  show Ideal.ofBits .f32 0x00000000#32 + _ = _
  rw [Ideal.ofBits_zero_f32, zero_add]
  rfl

/-- First top layer. -/
theorem v28_at (b : Fin 32) (h : Fin 512) :
    Read.val_main_v28 (F := Ideal) x0 x1 x2 x3 x4 x5 x6 x7 x8 x9 (ix2 b h) = PairNet.top0 x0 x1 x2 x3 x4 x5 x6 x7 x8 x9 b h := by
  rw [Read.val_main_v28_apply, Read.val_main_v27_apply, Read.val_main_v24_apply, Read.val_main_v26_apply,
    Read.val_main_v25_apply, Read.val_main_call3_v0_apply, Read.val_main_call3_cst_apply]
  have hl : ∀ k : Fin 512, Read.lidx_main_v24 (ix2 b h) k = ix2 b k := fun k =>
    funext fun a => by match a with | ⟨0, _⟩ => rfl | ⟨1, _⟩ => rfl
  have hr : ∀ k : Fin 512, Read.ridx_main_v24 (ix2 b h) k = ix2 k h := fun k =>
    funext fun a => by match a with | ⟨0, _⟩ => rfl | ⟨1, _⟩ => rfl
  have hb : Read.idx_main_v25 (Read.idx_main_v26 (ix2 b h)) = ix1 h :=
    funext fun a => by match a with | ⟨0, _⟩ => rfl
  have e : ∀ k : Fin 512, Read.val_main_v23 (F := Ideal) x0 x1 x2 x3 x4 x5 x6 x7 (Read.lidx_main_v24 (ix2 b h) k) * x8 (Read.ridx_main_v24 (ix2 b h) k)
      = PairNet.pooled x0 x1 x2 x3 x4 x5 x6 x7 b k * x8 (ix2 k h) := fun k => by rw [hl, hr, v23_at]
  rw [Finset.sum_congr rfl fun k _ => e k, hb]
  rfl

/-- Second top layer. -/
theorem v33_at (b : Fin 32) (h : Fin 256) :
    Read.val_main_v33 (F := Ideal) x0 x1 x2 x3 x4 x5 x6 x7 x8 x9 x10 x11 (ix2 b h)
      = PairNet.top1 x0 x1 x2 x3 x4 x5 x6 x7 x8 x9 x10 x11 b h := by
  rw [Read.val_main_v33_apply, Read.val_main_v32_apply, Read.val_main_v29_apply, Read.val_main_v31_apply,
    Read.val_main_v30_apply, Read.val_main_call4_v0_apply, Read.val_main_call4_cst_apply]
  have hl : ∀ k : Fin 512, Read.lidx_main_v29 (ix2 b h) k = ix2 b k := fun k =>
    funext fun a => by match a with | ⟨0, _⟩ => rfl | ⟨1, _⟩ => rfl
  have hr : ∀ k : Fin 512, Read.ridx_main_v29 (ix2 b h) k = ix2 k h := fun k =>
    funext fun a => by match a with | ⟨0, _⟩ => rfl | ⟨1, _⟩ => rfl
  have hb : Read.idx_main_v30 (Read.idx_main_v31 (ix2 b h)) = ix1 h :=
    funext fun a => by match a with | ⟨0, _⟩ => rfl
  have e : ∀ k : Fin 512, Read.val_main_v28 (F := Ideal) x0 x1 x2 x3 x4 x5 x6 x7 x8 x9 (Read.lidx_main_v29 (ix2 b h) k) * x10 (Read.ridx_main_v29 (ix2 b h) k)
      = PairNet.top0 x0 x1 x2 x3 x4 x5 x6 x7 x8 x9 b k * x10 (ix2 k h) := fun k => by rw [hl, hr, v28_at]
  rw [Finset.sum_congr rfl fun k _ => e k, hb]
  rfl

end Layers

/-- The reference's last array is the network's result array. -/
theorem result_eq (x0 : (⟨S32x40x256, .f32⟩ : BufTy).Contents (Elt Ideal)) (x1 : (⟨S32x256, .f32⟩ : BufTy).Contents (Elt Ideal))
    (x2 : (⟨S768x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal))
    (x8 : (⟨S512x512, .f32⟩ : BufTy).Contents (Elt Ideal)) (x9 : (⟨S512, .f32⟩ : BufTy).Contents (Elt Ideal))
    (x10 : (⟨S512x256, .f32⟩ : BufTy).Contents (Elt Ideal)) (x11 : (⟨S256, .f32⟩ : BufTy).Contents (Elt Ideal)) :
    Cert.ReferenceIdeal.Read.val_main_v33 (F := Ideal) x0 x1 x2 x3 x4 x5 x6 x7 x8 x9 x10 x11
      = Cert.PairNet.result x0 x1 x2 x3 x4 x5 x6 x7 x8 x9 x10 x11 := by
  funext i
  rw [eq_ix2 i]
  exact v33_at x0 x1 x2 x3 x4 x5 x6 x7 x8 x9 x10 x11 (i 0) (i 1)

end Cert.ReferenceIdeal.RefValue
end
-- ==== Proof.Reads.lean ====
/-
  Vector operations of the kernel's body read at one entry, over the extended reals, for vectors of the shapes the
  body uses. Nothing here mentions a program: every statement is about a matrix product, a stacking of row blocks,
  or a column sum, and says which entries of the operands the result's entry (p, h) is made of.

  * a matrix product into a zero accumulator is the sum over the contracted axis of the products of entries;
  * a product, plus a bias row repeated down the rows, rectified, is one dense unit of the network (dense);
  * forty copies of a [40, 256] block stacked along the rows show, in row p, the block's row (p mod 40);
  * forty [40, 256] blocks stacked, block n being row n of a matrix repeated forty times, show row (p div 40);
  * a sum of a [P, N] matrix along its rows is, in column o, the sum over p of the entries (p, o).
-/
import Idealize.ShloMosaic.Lib.ValueIdx
import Idealize.ShloMosaic.Lib.ValueLayout
import Idealize.ShloMosaic.Lib.Pipeline.Value
import Idealize.ShloMosaic.PureOps.Ideal.Laws
import proofs.«133592_j43001212567988_1_alg».proof.Proof.PairNet

noncomputable section

open scoped BigOperators

namespace Cert.PairNet

open Idealize.ShloMosaic Idealize.ShloMosaic.ValueIdx

/-! ## A rows-by-columns matrix product at an entry -/

section Plain
variable (M K N : Nat)

theorem plain_lhs_0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
theorem plain_lhs_1 (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c
theorem plain_rhs_0 (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c
theorem plain_rhs_1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, h) of an [M, K] by [K, N] product into a zero accumulator: the sum over k of a[p, k] * w[k, h]. -/
theorem plain_matmul_zero_apply {φ₁ φ₂ : FTy} (a : FVec Ideal ⟨2, ![M, K]⟩ φ₁) (w : FVec Ideal ⟨2, ![K, N]⟩ φ₂)
    (p : Fin M) (h : Fin N) :
    matmul (DotDims.plain M K N) none a w (constant ⟨2, ![M, N]⟩ .f32 0x00000000#32) (ix2 p h)
      = ∑ k : Fin K, a (ix2 p k) * w (ix2 k h) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p h) ((contrEquiv1 (DotDims.plain M K N) K rfl rfl).symm k) = ix2 p k :=
    funext fun ax => Fin.ext (by
      match ax with
      | ⟨0, _⟩ => exact plain_lhs_0 M K N _ _
      | ⟨1, _⟩ => exact (plain_lhs_1 M K N _ _).trans hk)
  have er : (DotDims.plain M K N).rhsIdx (ix2 p h) ((contrEquiv1 (DotDims.plain M K N) K rfl rfl).symm k) = ix2 k h :=
    funext fun ax => Fin.ext (by
      match ax with
      | ⟨0, _⟩ => exact (plain_rhs_0 M K N _ _).trans hk
      | ⟨1, _⟩ => exact plain_rhs_1 M K N _ _)
  rw [el, er]

end Plain

/-! ## Dense layers -/

/-- A product with a weight stored in the wider format, plus the bias row repeated down the rows, rectified:
    entry (p, h) is the dense unit h on row p of the left operand. -/
theorem dense_rows_apply (M K N : Nat) (a : FVec Ideal ⟨2, ![M, K]⟩ .bf16) (w : FVec Ideal ⟨2, ![K, N]⟩ .f32)
    (bias : FVec Ideal ⟨1, ![N]⟩ .f32) (hlt : FTy.bits .bf16 < FTy.bits .f32)
    (hc : (⟨1, ![N]⟩ : Shape).ShapeCasts ⟨2, ![1, N]⟩) (hb : (⟨2, ![1, N]⟩ : Shape).Broadcasts ⟨2, ![M, N]⟩)
    (p : Fin M) (h : Fin N) :
    maximumf (addf (matmul (DotDims.plain M K N) none a (truncf .bf16 w hlt) (constant ⟨2, ![M, N]⟩ .f32 0x00000000#32))
        (broadcastTo ⟨2, ![M, N]⟩ (shapeCast ⟨2, ![1, N]⟩ bias hc) hb))
      (broadcast ⟨2, ![M, N]⟩ (Scalar.ofBits .f32 0x00000000#32)) (ix2 p h)
      = dense (fun k => a (ix2 p k)) w bias h := by
  show max (matmul (DotDims.plain M K N) none a (truncf .bf16 w hlt) (constant ⟨2, ![M, N]⟩ .f32 0x00000000#32) (ix2 p h)
      + broadcastTo ⟨2, ![M, N]⟩ (shapeCast ⟨2, ![1, N]⟩ bias hc) hb (ix2 p h)) (Ideal.ofBits .f32 0x00000000#32) = _
  rw [plain_matmul_zero_apply, broadcastTo_1b_ab_apply, shapeCast_a_1a_apply]
  rfl

/-- The same on a single row, where the bias row is added as it is. -/
theorem dense_row_apply (K N : Nat) (a : FVec Ideal ⟨2, ![1, K]⟩ .bf16) (w : FVec Ideal ⟨2, ![K, N]⟩ .f32)
    (bias : FVec Ideal ⟨1, ![N]⟩ .f32) (hlt : FTy.bits .bf16 < FTy.bits .f32)
    (hc : (⟨1, ![N]⟩ : Shape).ShapeCasts ⟨2, ![1, N]⟩) (h : Fin N) :
    maximumf (addf (matmul (DotDims.plain 1 K N) none a (truncf .bf16 w hlt) (constant ⟨2, ![1, N]⟩ .f32 0x00000000#32))
        (shapeCast ⟨2, ![1, N]⟩ bias hc))
      (broadcast ⟨2, ![1, N]⟩ (Scalar.ofBits .f32 0x00000000#32)) (ix2 (0 : Fin 1) h)
      = dense (fun k => a (ix2 (0 : Fin 1) k)) w bias h := by
  show max (matmul (DotDims.plain 1 K N) none a (truncf .bf16 w hlt) (constant ⟨2, ![1, N]⟩ .f32 0x00000000#32) (ix2 (0 : Fin 1) h)
      + shapeCast ⟨2, ![1, N]⟩ bias hc (ix2 (0 : Fin 1) h)) (Ideal.ofBits .f32 0x00000000#32) = _
  rw [plain_matmul_zero_apply, shapeCast_a_1a_apply]
  rfl

/-- The first layer: two [1600, 256] operands and one single row against three weights, the single row's product
    repeated down the rows, then the bias row, rectified. -/
theorem first_layer_apply (xl xr : FVec Ideal ⟨2, ![1600, 256]⟩ .bf16) (qv : FVec Ideal ⟨2, ![1, 256]⟩ .bf16)
    (wa wb wc : FVec Ideal ⟨2, ![256, 512]⟩ .f32) (bias : FVec Ideal ⟨1, ![512]⟩ .f32)
    (hlt : FTy.bits .bf16 < FTy.bits .f32)
    (hc : (⟨1, ![512]⟩ : Shape).ShapeCasts ⟨2, ![1, 512]⟩) (hb : (⟨2, ![1, 512]⟩ : Shape).Broadcasts ⟨2, ![1600, 512]⟩)
    (p : Fin 1600) (h : Fin 512) :
    maximumf (addf (addf (addf
          (matmul (DotDims.plain 1600 256 512) none xl (truncf .bf16 wa hlt) (constant ⟨2, ![1600, 512]⟩ .f32 0x00000000#32))
          (matmul (DotDims.plain 1600 256 512) none xr (truncf .bf16 wb hlt) (constant ⟨2, ![1600, 512]⟩ .f32 0x00000000#32)))
          (broadcastTo ⟨2, ![1600, 512]⟩
            (matmul (DotDims.plain 1 256 512) none qv (truncf .bf16 wc hlt) (constant ⟨2, ![1, 512]⟩ .f32 0x00000000#32)) hb))
        (broadcastTo ⟨2, ![1600, 512]⟩ (shapeCast ⟨2, ![1, 512]⟩ bias hc) hb))
      (broadcast ⟨2, ![1600, 512]⟩ (Scalar.ofBits .f32 0x00000000#32)) (ix2 p h)
      = relu ((∑ k : Fin 256, xl (ix2 p k) * wa (ix2 k h) + ∑ k : Fin 256, xr (ix2 p k) * wb (ix2 k h)
          + ∑ k : Fin 256, qv (ix2 (0 : Fin 1) k) * wc (ix2 k h)) + bias (ix1 h)) := by
  show max (matmul (DotDims.plain 1600 256 512) none xl (truncf .bf16 wa hlt) (constant ⟨2, ![1600, 512]⟩ .f32 0x00000000#32) (ix2 p h)
      + matmul (DotDims.plain 1600 256 512) none xr (truncf .bf16 wb hlt) (constant ⟨2, ![1600, 512]⟩ .f32 0x00000000#32) (ix2 p h)
      + broadcastTo ⟨2, ![1600, 512]⟩
          (matmul (DotDims.plain 1 256 512) none qv (truncf .bf16 wc hlt) (constant ⟨2, ![1, 512]⟩ .f32 0x00000000#32)) hb (ix2 p h)
      + broadcastTo ⟨2, ![1600, 512]⟩ (shapeCast ⟨2, ![1, 512]⟩ bias hc) hb (ix2 p h)) (Ideal.ofBits .f32 0x00000000#32) = _
  rw [plain_matmul_zero_apply, plain_matmul_zero_apply, broadcastTo_1b_ab_apply, broadcastTo_1b_ab_apply,
    plain_matmul_zero_apply, shapeCast_a_1a_apply]
  rfl

/-! ## Rows arranged by stacking -/

/-- Forty copies of one [40, 256] block stacked along the rows: row p is the block's row (p mod 40). -/
theorem tile_rows_apply {α : Type} (v : (⟨2, ![40, 256]⟩ : Shape).Idx → α)
    (h : Shape.Concatenates ((List.replicate 40 (⟨⟨2, ![40, 256]⟩, v⟩ : (s : Shape) × (s.Idx → α))).map (·.1)) ⟨2, ![1600, 256]⟩ 0)
    (p : Fin 1600) (k : Fin 256) :
    concatenate ⟨2, ![1600, 256]⟩ 0 (List.replicate 40 ⟨⟨2, ![40, 256]⟩, v⟩) h (ix2 p k) = v (ix2 (lrow p) k) :=
  concatenate_replicate_apply 0 40 v h rfl (ix2 p k) (ix2 (lrow p) k) rfl (fun b hb => by
    match b with
    | ⟨0, _⟩ => exact absurd rfl hb
    | ⟨1, _⟩ => rfl)

/-- Forty [40, 256] blocks stacked along the rows: row p lies in block (p div 40), at its row (p mod 40). -/
theorem stack_rows_apply {α : Type} (f : Fin 40 → ((⟨2, ![40, 256]⟩ : Shape).Idx → α))
    (h : Shape.Concatenates ((List.ofFn fun n : Fin 40 => (⟨⟨2, ![40, 256]⟩, f n⟩ : (s : Shape) × (s.Idx → α))).map (·.1)) ⟨2, ![1600, 256]⟩ 0)
    (p : Fin 1600) (k : Fin 256) :
    concatenate ⟨2, ![1600, 256]⟩ 0 (List.ofFn fun n : Fin 40 => (⟨⟨2, ![40, 256]⟩, f n⟩ : (s : Shape) × (s.Idx → α))) h (ix2 p k)
      = f (rrow p) (ix2 (lrow p) k) :=
  concatenate_ofFn_apply 0 f h rfl 40 rfl (ix2 p k) (rrow p) rfl (ix2 (lrow p) k) rfl (fun b hb => by
    match b with
    | ⟨0, _⟩ => exact absurd rfl hb
    | ⟨1, _⟩ => rfl)

/-- Row o of a [40, 256] matrix cut out and repeated down forty rows: every row reads the matrix's row o. -/
theorem row_repeated_apply {α : Type} (o : Nat) (ho : o < 40) (v : (⟨2, ![40, 256]⟩ : Shape).Idx → α)
    (hs : (⟨2, ![40, 256]⟩ : Shape).Slices ![o, 0] ⟨2, ![1, 256]⟩)
    (hc : (⟨2, ![1, 256]⟩ : Shape).ShapeCasts ⟨2, ![1, 256]⟩)
    (hb : (⟨2, ![1, 256]⟩ : Shape).Broadcasts ⟨2, ![40, 256]⟩) (r : Fin 40) (k : Fin 256) :
    broadcastTo ⟨2, ![40, 256]⟩ (shapeCast ⟨2, ![1, 256]⟩ (extractStridedSlice ⟨2, ![1, 256]⟩ ![o, 0] v hs) hc) hb (ix2 r k)
      = v (ix2 ⟨o, ho⟩ k) := by
  rw [broadcastTo_1b_ab_apply, shapeCast_self, slice2_axis0_apply o v hs (0 : Fin 1) k ⟨o, ho⟩ rfl]

/-- A single cut-out row read back: entry (0, k) of the cut is entry (o, k) of the matrix. -/
theorem row_cut_apply {α : Type} (o : Nat) (ho : o < 40) (v : (⟨2, ![40, 256]⟩ : Shape).Idx → α)
    (hs : (⟨2, ![40, 256]⟩ : Shape).Slices ![o, 0] ⟨2, ![1, 256]⟩) (k : Fin 256) :
    extractStridedSlice ⟨2, ![1, 256]⟩ ![o, 0] v hs (ix2 (0 : Fin 1) k) = v (ix2 ⟨o, ho⟩ k) :=
  slice2_axis0_apply o v hs (0 : Fin 1) k ⟨o, ho⟩ rfl

/-- A cut-out row repeated down forty rows, the row given as a vector. -/
theorem row_vector_repeated_apply {α : Type} (v : (⟨2, ![1, 256]⟩ : Shape).Idx → α)
    (hc : (⟨2, ![1, 256]⟩ : Shape).ShapeCasts ⟨2, ![1, 256]⟩)
    (hb : (⟨2, ![1, 256]⟩ : Shape).Broadcasts ⟨2, ![40, 256]⟩) (r : Fin 40) (k : Fin 256) :
    broadcastTo ⟨2, ![40, 256]⟩ (shapeCast ⟨2, ![1, 256]⟩ v hc) hb (ix2 r k) = v (ix2 (0 : Fin 1) k) := by
  rw [broadcastTo_1b_ab_apply, shapeCast_self]

/-! ## A sum along the rows -/

/-- The sum of a [P, N] matrix along its rows, into a zero start: column o is the sum over p of the entries (p, o). -/
theorem column_sum_apply {P N : Nat} (src : FVec Ideal ⟨2, ![P, N]⟩ .f32)
    (h : (⟨2, ![P, N]⟩ : Shape).Reduces [0] ⟨1, ![N]⟩) (hφ : FKind.Formats .f32)
    (hacc : (0x00000000#32 : BitVec 32) = FKind.add.neutral .f32 hφ) (o : Fin N) :
    multiReduction .add [0] ⟨1, ![N]⟩ src 0x00000000#32 h hφ hacc (ix1 o) = ∑ p : Fin P, src (ix2 p o) := by
  rw [Ideal.multiReduction_add_single]
  refine Finset.sum_congr rfl fun p _ => congrArg src (funext fun ax => ?_)
  match ax with
  | ⟨0, _⟩ => exact Fin.ext rfl
  | ⟨1, _⟩ => exact Fin.ext rfl

end Cert.PairNet

end
-- ==== Proof.KernelBlocks.lean ====
/-
  What the kernel's body leaves in its output block, entry by entry, as the relation network of one batch.

  The body sees one batch: a [1, 40, 256] block of x, a [1, 1, 256] block of q, and the weights whole. It stacks the
  forty rows two ways — forty copies of the block (row p shows row p mod 40) and, for each row n, that row repeated
  forty times (row p shows row p div 40) — multiplies the two stacks and the question row by the three 256-row blocks
  of the first weight, adds the bias and rectifies; two more dense layers follow on all 1600 rows, then the sum over
  the rows, then two dense layers on the single summed row. Read at an entry, with every change of float format the
  identity on the extended reals, that is blockNet below.
-/
import proofs.«133592_j43001212567988_1_alg».proof.Proof.Gen.KernelIdeal.Frame
import proofs.«133592_j43001212567988_1_alg».proof.Proof.Reads

set_option maxRecDepth 16384

noncomputable section

open scoped BigOperators

namespace Cert.PairNet

open Idealize.ShloMosaic Idealize.ShloMosaic.ValueIdx

/-- The first layer on pair p of one batch, from the batch's blocks: xb the forty rows, qb the question row, and
    wA, wB, wC the three blocks of 256 rows of the first weight. -/
def hid0B (xb : (⟨3, ![1, 40, 256]⟩ : Shape).Idx → EReal) (qb : (⟨3, ![1, 1, 256]⟩ : Shape).Idx → EReal)
    (wA wB wC : (⟨2, ![256, 512]⟩ : Shape).Idx → EReal) (bb : (⟨1, ![512]⟩ : Shape).Idx → EReal)
    (p : Fin 1600) (h : Fin 512) : EReal :=
  relu ((∑ k : Fin 256, xb (ix3 (0 : Fin 1) (lrow p) k) * wA (ix2 k h)
        + ∑ k : Fin 256, xb (ix3 (0 : Fin 1) (rrow p) k) * wB (ix2 k h)
        + ∑ k : Fin 256, qb (ix3 (0 : Fin 1) (0 : Fin 1) k) * wC (ix2 k h)) + bb (ix1 h))

/-- The whole network on one batch, from the batch's blocks. -/
def blockNet (xb : (⟨3, ![1, 40, 256]⟩ : Shape).Idx → EReal) (qb : (⟨3, ![1, 1, 256]⟩ : Shape).Idx → EReal)
    (wA wB wC : (⟨2, ![256, 512]⟩ : Shape).Idx → EReal) (bb : (⟨1, ![512]⟩ : Shape).Idx → EReal)
    (w1 : (⟨2, ![512, 512]⟩ : Shape).Idx → EReal) (b1 : (⟨1, ![512]⟩ : Shape).Idx → EReal)
    (w2 : (⟨2, ![512, 512]⟩ : Shape).Idx → EReal) (b2 : (⟨1, ![512]⟩ : Shape).Idx → EReal)
    (u0 : (⟨2, ![512, 512]⟩ : Shape).Idx → EReal) (c0 : (⟨1, ![512]⟩ : Shape).Idx → EReal)
    (u1 : (⟨2, ![512, 256]⟩ : Shape).Idx → EReal) (c1 : (⟨1, ![256]⟩ : Shape).Idx → EReal) (o : Fin 256) : EReal :=
  dense (dense (fun j => ∑ p : Fin 1600,
      dense (dense (hid0B xb qb wA wB wC bb p) w1 b1) w2 b2 j) u0 c0) u1 c1 o

end Cert.PairNet

namespace Cert.KernelIdeal.Body

open Cert.KernelIdeal Cert.KernelIdeal.Gen Cert.PairNet
open Idealize.ShloMosaic Idealize.ShloMosaic.TcCoe Idealize.ShloMosaic.ValueIdx

/-! ## The three row blocks of the first weight, as the body loads them -/

theorem ld_blk0 (x2 : Vec Ideal S768x512 .f32) (k : Fin 256) (h : Fin 512) :
    View.ld x2 r0_2 (ix2 k h) = x2 (ix2 (blk0 k) h) := by
  show x2 _ = x2 _
  refine congrArg x2 (funext fun a => Fin.ext ?_)
  match a with
  | ⟨0, _⟩ => show 0 + 1 * k.val = k.val; omega
  | ⟨1, _⟩ => show 0 + 1 * h.val = h.val; omega
theorem ld_blk1 (x2 : Vec Ideal S768x512 .f32) (k : Fin 256) (h : Fin 512) :
    View.ld x2 r0_3 (ix2 k h) = x2 (ix2 (blk1 k) h) := by
  show x2 _ = x2 _
  refine congrArg x2 (funext fun a => Fin.ext ?_)
  match a with
  | ⟨0, _⟩ => show 256 + 1 * k.val = 256 + k.val; omega
  | ⟨1, _⟩ => show 0 + 1 * h.val = h.val; omega
theorem ld_blk2 (x2 : Vec Ideal S768x512 .f32) (k : Fin 256) (h : Fin 512) :
    View.ld x2 r0_4 (ix2 k h) = x2 (ix2 (blk2 k) h) := by
  show x2 _ = x2 _
  refine congrArg x2 (funext fun a => Fin.ext ?_)
  match a with
  | ⟨0, _⟩ => show 512 + 1 * k.val = 512 + k.val; omega
  | ⟨1, _⟩ => show 0 + 1 * h.val = h.val; omega

/-! ## The rows of the batch as the body arranges them -/

section Rows
variable (l0 : Vec Ideal S1x40x256 .f32) (l1 : Vec Ideal S1x1x256 .f32)

/-- The block with its unit axis dropped: entry (r, k) is the block's (0, r, k). -/
theorem pay2_apply (r : Fin 40) (k : Fin 256) : k0_pay2 (F := Ideal) l0 (ix2 r k) = l0 (ix3 (0 : Fin 1) r k) := by
  unfold k0_pay2
  exact shapeCast_1ab_ab_apply l0 _ r k

/-- The question row with its unit axis dropped. -/
theorem pay3_apply (k : Fin 256) : k0_pay3 (F := Ideal) l1 (ix2 (0 : Fin 1) k) = l1 (ix3 (0 : Fin 1) (0 : Fin 1) k) := by
  unfold k0_pay3
  exact shapeCast_1ab_ab_apply l1 _ (0 : Fin 1) k

/-- Forty copies of the block stacked: row p is the block's row (p mod 40). -/
theorem pay4_apply (p : Fin 1600) (k : Fin 256) :
    k0_pay4 (F := Ideal) l0 (ix2 p k) = l0 (ix3 (0 : Fin 1) (lrow p) k) := by
  unfold k0_pay4
  exact (tile_rows_apply (k0_pay2 (F := Ideal) l0) _ p k).trans (pay2_apply l0 _ k)

end Rows

end Cert.KernelIdeal.Body

end
-- ==== Proof.KernelRows.lean ====
/-
  The table of the forty row pieces. The kernel's body stacks forty [40, 256] pieces along the rows, piece n being
  row n of the batch's block repeated forty times. For each n the piece's every row reads the block's row n (pieceN,
  one instance each of the lemma row_repeated_apply); the pieces as one family (pieces, pieces_apply); the
  stack read at a row: row p shows the block's row (p div 40) (stacked_apply); and the body's first two layers with
  its operands filled in (hidden), which is the term the output block's one store is computed from (out_eq). -/
import proofs.«133592_j43001212567988_1_alg».proof.Proof.KernelBlocks

set_option maxRecDepth 16384

noncomputable section

namespace Cert.KernelIdeal.Body

open Cert.KernelIdeal Cert.KernelIdeal.Gen Cert.PairNet
open Idealize.ShloMosaic Idealize.ShloMosaic.TcCoe Idealize.ShloMosaic.ValueIdx

section Rows
variable (l0 : Vec Ideal S1x40x256 .f32)

theorem piece0 (r : Fin 40) (k : Fin 256) :
    (k0_pay5 (F := Ideal) l0) (ix2 r k) = l0 (ix3 (0 : Fin 1) (⟨0, by decide⟩ : Fin 40) k) := by
  unfold k0_pay5
  exact (row_repeated_apply 0 (by decide) (k0_pay2 l0) _ _ _ r k).trans (pay2_apply l0 _ k)
theorem piece1 (r : Fin 40) (k : Fin 256) :
    (k0_pay6 (F := Ideal) l0) (ix2 r k) = l0 (ix3 (0 : Fin 1) (⟨1, by decide⟩ : Fin 40) k) := by
  unfold k0_pay6
  exact (row_repeated_apply 1 (by decide) (k0_pay2 l0) _ _ _ r k).trans (pay2_apply l0 _ k)
theorem piece2 (r : Fin 40) (k : Fin 256) :
    (k0_pay7 (F := Ideal) l0) (ix2 r k) = l0 (ix3 (0 : Fin 1) (⟨2, by decide⟩ : Fin 40) k) := by
  unfold k0_pay7
  exact (row_repeated_apply 2 (by decide) (k0_pay2 l0) _ _ _ r k).trans (pay2_apply l0 _ k)
theorem piece3 (r : Fin 40) (k : Fin 256) :
    (k0_pay8 (F := Ideal) l0) (ix2 r k) = l0 (ix3 (0 : Fin 1) (⟨3, by decide⟩ : Fin 40) k) := by
  unfold k0_pay8
  exact (row_repeated_apply 3 (by decide) (k0_pay2 l0) _ _ _ r k).trans (pay2_apply l0 _ k)
theorem piece4 (r : Fin 40) (k : Fin 256) :
    (k0_pay9 (F := Ideal) l0) (ix2 r k) = l0 (ix3 (0 : Fin 1) (⟨4, by decide⟩ : Fin 40) k) := by
  unfold k0_pay9
  exact (row_repeated_apply 4 (by decide) (k0_pay2 l0) _ _ _ r k).trans (pay2_apply l0 _ k)
theorem piece5 (r : Fin 40) (k : Fin 256) :
    (k0_pay10 (F := Ideal) l0) (ix2 r k) = l0 (ix3 (0 : Fin 1) (⟨5, by decide⟩ : Fin 40) k) := by
  unfold k0_pay10
  exact (row_repeated_apply 5 (by decide) (k0_pay2 l0) _ _ _ r k).trans (pay2_apply l0 _ k)
theorem piece6 (r : Fin 40) (k : Fin 256) :
    (k0_pay11 (F := Ideal) l0) (ix2 r k) = l0 (ix3 (0 : Fin 1) (⟨6, by decide⟩ : Fin 40) k) := by
  unfold k0_pay11
  exact (row_repeated_apply 6 (by decide) (k0_pay2 l0) _ _ _ r k).trans (pay2_apply l0 _ k)
theorem piece7 (r : Fin 40) (k : Fin 256) :
    (k0_pay12 (F := Ideal) l0) (ix2 r k) = l0 (ix3 (0 : Fin 1) (⟨7, by decide⟩ : Fin 40) k) := by
  unfold k0_pay12
  exact (row_repeated_apply 7 (by decide) (k0_pay2 l0) _ _ _ r k).trans (pay2_apply l0 _ k)
theorem piece8 (r : Fin 40) (k : Fin 256) :
    (k0_pay13 (F := Ideal) l0) (ix2 r k) = l0 (ix3 (0 : Fin 1) (⟨8, by decide⟩ : Fin 40) k) := by
  unfold k0_pay13
  exact (row_repeated_apply 8 (by decide) (k0_pay2 l0) _ _ _ r k).trans (pay2_apply l0 _ k)
theorem piece9 (r : Fin 40) (k : Fin 256) :
    (k0_pay14 (F := Ideal) l0) (ix2 r k) = l0 (ix3 (0 : Fin 1) (⟨9, by decide⟩ : Fin 40) k) := by
  unfold k0_pay14
  exact (row_repeated_apply 9 (by decide) (k0_pay2 l0) _ _ _ r k).trans (pay2_apply l0 _ k)
theorem piece10 (r : Fin 40) (k : Fin 256) :
    (k0_pay15 (F := Ideal) l0) (ix2 r k) = l0 (ix3 (0 : Fin 1) (⟨10, by decide⟩ : Fin 40) k) := by
  unfold k0_pay15
  exact (row_repeated_apply 10 (by decide) (k0_pay2 l0) _ _ _ r k).trans (pay2_apply l0 _ k)
theorem piece11 (r : Fin 40) (k : Fin 256) :
    (k0_pay16 (F := Ideal) l0) (ix2 r k) = l0 (ix3 (0 : Fin 1) (⟨11, by decide⟩ : Fin 40) k) := by
  unfold k0_pay16
  exact (row_repeated_apply 11 (by decide) (k0_pay2 l0) _ _ _ r k).trans (pay2_apply l0 _ k)
theorem piece12 (r : Fin 40) (k : Fin 256) :
    (k0_pay17 (F := Ideal) l0) (ix2 r k) = l0 (ix3 (0 : Fin 1) (⟨12, by decide⟩ : Fin 40) k) := by
  unfold k0_pay17
  exact (row_repeated_apply 12 (by decide) (k0_pay2 l0) _ _ _ r k).trans (pay2_apply l0 _ k)
theorem piece13 (r : Fin 40) (k : Fin 256) :
    (k0_pay18 (F := Ideal) l0) (ix2 r k) = l0 (ix3 (0 : Fin 1) (⟨13, by decide⟩ : Fin 40) k) := by
  unfold k0_pay18
  exact (row_repeated_apply 13 (by decide) (k0_pay2 l0) _ _ _ r k).trans (pay2_apply l0 _ k)
theorem piece14 (r : Fin 40) (k : Fin 256) :
    (k0_pay19 (F := Ideal) l0) (ix2 r k) = l0 (ix3 (0 : Fin 1) (⟨14, by decide⟩ : Fin 40) k) := by
  unfold k0_pay19
  exact (row_repeated_apply 14 (by decide) (k0_pay2 l0) _ _ _ r k).trans (pay2_apply l0 _ k)
theorem piece15 (r : Fin 40) (k : Fin 256) :
    (k0_pay21 (F := Ideal) (k0_pay20 l0)) (ix2 r k) = l0 (ix3 (0 : Fin 1) (⟨15, by decide⟩ : Fin 40) k) := by
  unfold k0_pay21 k0_pay20
  exact (row_repeated_apply 15 (by decide) (k0_pay2 l0) _ _ _ r k).trans (pay2_apply l0 _ k)
theorem piece16 (r : Fin 40) (k : Fin 256) :
    (k0_pay22 (F := Ideal) (k0_pay2 l0)) (ix2 r k) = l0 (ix3 (0 : Fin 1) (⟨16, by decide⟩ : Fin 40) k) := by
  unfold k0_pay22
  exact (row_repeated_apply 16 (by decide) (k0_pay2 l0) _ _ _ r k).trans (pay2_apply l0 _ k)
theorem piece17 (r : Fin 40) (k : Fin 256) :
    (k0_pay23 (F := Ideal) (k0_pay2 l0)) (ix2 r k) = l0 (ix3 (0 : Fin 1) (⟨17, by decide⟩ : Fin 40) k) := by
  unfold k0_pay23
  exact (row_repeated_apply 17 (by decide) (k0_pay2 l0) _ _ _ r k).trans (pay2_apply l0 _ k)
theorem piece18 (r : Fin 40) (k : Fin 256) :
    (k0_pay24 (F := Ideal) (k0_pay2 l0)) (ix2 r k) = l0 (ix3 (0 : Fin 1) (⟨18, by decide⟩ : Fin 40) k) := by
  unfold k0_pay24
  exact (row_repeated_apply 18 (by decide) (k0_pay2 l0) _ _ _ r k).trans (pay2_apply l0 _ k)
theorem piece19 (r : Fin 40) (k : Fin 256) :
    (k0_pay25 (F := Ideal) (k0_pay2 l0)) (ix2 r k) = l0 (ix3 (0 : Fin 1) (⟨19, by decide⟩ : Fin 40) k) := by
  unfold k0_pay25
  exact (row_repeated_apply 19 (by decide) (k0_pay2 l0) _ _ _ r k).trans (pay2_apply l0 _ k)
theorem piece20 (r : Fin 40) (k : Fin 256) :
    (k0_pay26 (F := Ideal) (k0_pay2 l0)) (ix2 r k) = l0 (ix3 (0 : Fin 1) (⟨20, by decide⟩ : Fin 40) k) := by
  unfold k0_pay26
  exact (row_repeated_apply 20 (by decide) (k0_pay2 l0) _ _ _ r k).trans (pay2_apply l0 _ k)
theorem piece21 (r : Fin 40) (k : Fin 256) :
    (k0_pay27 (F := Ideal) (k0_pay2 l0)) (ix2 r k) = l0 (ix3 (0 : Fin 1) (⟨21, by decide⟩ : Fin 40) k) := by
  unfold k0_pay27
  exact (row_repeated_apply 21 (by decide) (k0_pay2 l0) _ _ _ r k).trans (pay2_apply l0 _ k)
theorem piece22 (r : Fin 40) (k : Fin 256) :
    (k0_pay28 (F := Ideal) (k0_pay2 l0)) (ix2 r k) = l0 (ix3 (0 : Fin 1) (⟨22, by decide⟩ : Fin 40) k) := by
  unfold k0_pay28
  exact (row_repeated_apply 22 (by decide) (k0_pay2 l0) _ _ _ r k).trans (pay2_apply l0 _ k)
theorem piece23 (r : Fin 40) (k : Fin 256) :
    (k0_pay29 (F := Ideal) (k0_pay2 l0)) (ix2 r k) = l0 (ix3 (0 : Fin 1) (⟨23, by decide⟩ : Fin 40) k) := by
  unfold k0_pay29
  exact (row_repeated_apply 23 (by decide) (k0_pay2 l0) _ _ _ r k).trans (pay2_apply l0 _ k)
theorem piece24 (r : Fin 40) (k : Fin 256) :
    (k0_pay30 (F := Ideal) (k0_pay2 l0)) (ix2 r k) = l0 (ix3 (0 : Fin 1) (⟨24, by decide⟩ : Fin 40) k) := by
  unfold k0_pay30
  exact (row_repeated_apply 24 (by decide) (k0_pay2 l0) _ _ _ r k).trans (pay2_apply l0 _ k)
theorem piece25 (r : Fin 40) (k : Fin 256) :
    (k0_pay31 (F := Ideal) (k0_pay2 l0)) (ix2 r k) = l0 (ix3 (0 : Fin 1) (⟨25, by decide⟩ : Fin 40) k) := by
  unfold k0_pay31
  exact (row_repeated_apply 25 (by decide) (k0_pay2 l0) _ _ _ r k).trans (pay2_apply l0 _ k)
theorem piece26 (r : Fin 40) (k : Fin 256) :
    (k0_pay32 (F := Ideal) (k0_pay2 l0)) (ix2 r k) = l0 (ix3 (0 : Fin 1) (⟨26, by decide⟩ : Fin 40) k) := by
  unfold k0_pay32
  exact (row_repeated_apply 26 (by decide) (k0_pay2 l0) _ _ _ r k).trans (pay2_apply l0 _ k)
theorem piece27 (r : Fin 40) (k : Fin 256) :
    (k0_pay33 (F := Ideal) (k0_pay2 l0)) (ix2 r k) = l0 (ix3 (0 : Fin 1) (⟨27, by decide⟩ : Fin 40) k) := by
  unfold k0_pay33
  exact (row_repeated_apply 27 (by decide) (k0_pay2 l0) _ _ _ r k).trans (pay2_apply l0 _ k)
theorem piece28 (r : Fin 40) (k : Fin 256) :
    (k0_pay34 (F := Ideal) (k0_pay2 l0)) (ix2 r k) = l0 (ix3 (0 : Fin 1) (⟨28, by decide⟩ : Fin 40) k) := by
  unfold k0_pay34
  exact (row_repeated_apply 28 (by decide) (k0_pay2 l0) _ _ _ r k).trans (pay2_apply l0 _ k)
theorem piece29 (r : Fin 40) (k : Fin 256) :
    (k0_pay35 (F := Ideal) (k0_pay2 l0)) (ix2 r k) = l0 (ix3 (0 : Fin 1) (⟨29, by decide⟩ : Fin 40) k) := by
  unfold k0_pay35
  exact (row_repeated_apply 29 (by decide) (k0_pay2 l0) _ _ _ r k).trans (pay2_apply l0 _ k)
theorem piece30 (r : Fin 40) (k : Fin 256) :
    (k0_pay36 (F := Ideal) (k0_pay2 l0)) (ix2 r k) = l0 (ix3 (0 : Fin 1) (⟨30, by decide⟩ : Fin 40) k) := by
  unfold k0_pay36
  exact (row_repeated_apply 30 (by decide) (k0_pay2 l0) _ _ _ r k).trans (pay2_apply l0 _ k)
theorem piece31 (r : Fin 40) (k : Fin 256) :
    (k0_pay37 (F := Ideal) (k0_pay2 l0)) (ix2 r k) = l0 (ix3 (0 : Fin 1) (⟨31, by decide⟩ : Fin 40) k) := by
  unfold k0_pay37
  exact (row_repeated_apply 31 (by decide) (k0_pay2 l0) _ _ _ r k).trans (pay2_apply l0 _ k)
theorem piece32 (r : Fin 40) (k : Fin 256) :
    (k0_pay38 (F := Ideal) (k0_pay2 l0)) (ix2 r k) = l0 (ix3 (0 : Fin 1) (⟨32, by decide⟩ : Fin 40) k) := by
  unfold k0_pay38
  exact (row_repeated_apply 32 (by decide) (k0_pay2 l0) _ _ _ r k).trans (pay2_apply l0 _ k)
theorem piece33 (r : Fin 40) (k : Fin 256) :
    (k0_pay39 (F := Ideal) (k0_pay2 l0)) (ix2 r k) = l0 (ix3 (0 : Fin 1) (⟨33, by decide⟩ : Fin 40) k) := by
  unfold k0_pay39
  exact (row_repeated_apply 33 (by decide) (k0_pay2 l0) _ _ _ r k).trans (pay2_apply l0 _ k)
theorem piece34 (r : Fin 40) (k : Fin 256) :
    (k0_pay40 (F := Ideal) (k0_pay2 l0)) (ix2 r k) = l0 (ix3 (0 : Fin 1) (⟨34, by decide⟩ : Fin 40) k) := by
  unfold k0_pay40
  exact (row_repeated_apply 34 (by decide) (k0_pay2 l0) _ _ _ r k).trans (pay2_apply l0 _ k)
theorem piece35 (r : Fin 40) (k : Fin 256) :
    (broadcastTo S40x256 (shapeCast S1x256 (k0_pay41 (F := Ideal) (k0_pay2 l0)) shapeCasts_S1x256_S1x256) broadcasts_S1x256_S40x256) (ix2 r k) = l0 (ix3 (0 : Fin 1) (⟨35, by decide⟩ : Fin 40) k) := by
  unfold k0_pay41
  exact (row_repeated_apply 35 (by decide) (k0_pay2 l0) _ _ _ r k).trans (pay2_apply l0 _ k)
theorem piece36 (r : Fin 40) (k : Fin 256) :
    (broadcastTo S40x256 (shapeCast S1x256 (extractStridedSlice S1x256 ![36, 0] (k0_pay2 (F := Ideal) l0) slices_S40x256_o36_0_S1x256) shapeCasts_S1x256_S1x256) broadcasts_S1x256_S40x256) (ix2 r k) = l0 (ix3 (0 : Fin 1) (⟨36, by decide⟩ : Fin 40) k) := by
  exact (row_repeated_apply 36 (by decide) (k0_pay2 l0) _ _ _ r k).trans (pay2_apply l0 _ k)
theorem piece37 (r : Fin 40) (k : Fin 256) :
    (broadcastTo S40x256 (shapeCast S1x256 (extractStridedSlice S1x256 ![37, 0] (k0_pay2 (F := Ideal) l0) slices_S40x256_o37_0_S1x256) shapeCasts_S1x256_S1x256) broadcasts_S1x256_S40x256) (ix2 r k) = l0 (ix3 (0 : Fin 1) (⟨37, by decide⟩ : Fin 40) k) := by
  exact (row_repeated_apply 37 (by decide) (k0_pay2 l0) _ _ _ r k).trans (pay2_apply l0 _ k)
theorem piece38 (r : Fin 40) (k : Fin 256) :
    (broadcastTo S40x256 (shapeCast S1x256 (extractStridedSlice S1x256 ![38, 0] (k0_pay2 (F := Ideal) l0) slices_S40x256_o38_0_S1x256) shapeCasts_S1x256_S1x256) broadcasts_S1x256_S40x256) (ix2 r k) = l0 (ix3 (0 : Fin 1) (⟨38, by decide⟩ : Fin 40) k) := by
  exact (row_repeated_apply 38 (by decide) (k0_pay2 l0) _ _ _ r k).trans (pay2_apply l0 _ k)
theorem piece39 (r : Fin 40) (k : Fin 256) :
    (broadcastTo S40x256 (shapeCast S1x256 (extractStridedSlice S1x256 ![39, 0] (k0_pay2 (F := Ideal) l0) slices_S40x256_o39_0_S1x256) shapeCasts_S1x256_S1x256) broadcasts_S1x256_S40x256) (ix2 r k) = l0 (ix3 (0 : Fin 1) (⟨39, by decide⟩ : Fin 40) k) := by
  exact (row_repeated_apply 39 (by decide) (k0_pay2 l0) _ _ _ r k).trans (pay2_apply l0 _ k)

/-- The forty pieces as a family. -/
def pieces : Fin 40 → (S40x256.Idx → EReal) :=
  ![k0_pay5 (F := Ideal) l0,
    k0_pay6 (F := Ideal) l0,
    k0_pay7 (F := Ideal) l0,
    k0_pay8 (F := Ideal) l0,
    k0_pay9 (F := Ideal) l0,
    k0_pay10 (F := Ideal) l0,
    k0_pay11 (F := Ideal) l0,
    k0_pay12 (F := Ideal) l0,
    k0_pay13 (F := Ideal) l0,
    k0_pay14 (F := Ideal) l0,
    k0_pay15 (F := Ideal) l0,
    k0_pay16 (F := Ideal) l0,
    k0_pay17 (F := Ideal) l0,
    k0_pay18 (F := Ideal) l0,
    k0_pay19 (F := Ideal) l0,
    k0_pay21 (F := Ideal) (k0_pay20 l0),
    k0_pay22 (F := Ideal) (k0_pay2 l0),
    k0_pay23 (F := Ideal) (k0_pay2 l0),
    k0_pay24 (F := Ideal) (k0_pay2 l0),
    k0_pay25 (F := Ideal) (k0_pay2 l0),
    k0_pay26 (F := Ideal) (k0_pay2 l0),
    k0_pay27 (F := Ideal) (k0_pay2 l0),
    k0_pay28 (F := Ideal) (k0_pay2 l0),
    k0_pay29 (F := Ideal) (k0_pay2 l0),
    k0_pay30 (F := Ideal) (k0_pay2 l0),
    k0_pay31 (F := Ideal) (k0_pay2 l0),
    k0_pay32 (F := Ideal) (k0_pay2 l0),
    k0_pay33 (F := Ideal) (k0_pay2 l0),
    k0_pay34 (F := Ideal) (k0_pay2 l0),
    k0_pay35 (F := Ideal) (k0_pay2 l0),
    k0_pay36 (F := Ideal) (k0_pay2 l0),
    k0_pay37 (F := Ideal) (k0_pay2 l0),
    k0_pay38 (F := Ideal) (k0_pay2 l0),
    k0_pay39 (F := Ideal) (k0_pay2 l0),
    k0_pay40 (F := Ideal) (k0_pay2 l0),
    broadcastTo S40x256 (shapeCast S1x256 (k0_pay41 (F := Ideal) (k0_pay2 l0)) shapeCasts_S1x256_S1x256) broadcasts_S1x256_S40x256,
    broadcastTo S40x256 (shapeCast S1x256 (extractStridedSlice S1x256 ![36, 0] (k0_pay2 (F := Ideal) l0) slices_S40x256_o36_0_S1x256) shapeCasts_S1x256_S1x256) broadcasts_S1x256_S40x256,
    broadcastTo S40x256 (shapeCast S1x256 (extractStridedSlice S1x256 ![37, 0] (k0_pay2 (F := Ideal) l0) slices_S40x256_o37_0_S1x256) shapeCasts_S1x256_S1x256) broadcasts_S1x256_S40x256,
    broadcastTo S40x256 (shapeCast S1x256 (extractStridedSlice S1x256 ![38, 0] (k0_pay2 (F := Ideal) l0) slices_S40x256_o38_0_S1x256) shapeCasts_S1x256_S1x256) broadcasts_S1x256_S40x256,
    broadcastTo S40x256 (shapeCast S1x256 (extractStridedSlice S1x256 ![39, 0] (k0_pay2 (F := Ideal) l0) slices_S40x256_o39_0_S1x256) shapeCasts_S1x256_S1x256) broadcasts_S1x256_S40x256]

theorem pieces_apply (n : Fin 40) (r : Fin 40) (k : Fin 256) : pieces l0 n (ix2 r k) = l0 (ix3 (0 : Fin 1) n k) := by
  match n with
  | ⟨0, _⟩ => exact piece0 l0 r k
  | ⟨1, _⟩ => exact piece1 l0 r k
  | ⟨2, _⟩ => exact piece2 l0 r k
  | ⟨3, _⟩ => exact piece3 l0 r k
  | ⟨4, _⟩ => exact piece4 l0 r k
  | ⟨5, _⟩ => exact piece5 l0 r k
  | ⟨6, _⟩ => exact piece6 l0 r k
  | ⟨7, _⟩ => exact piece7 l0 r k
  | ⟨8, _⟩ => exact piece8 l0 r k
  | ⟨9, _⟩ => exact piece9 l0 r k
  | ⟨10, _⟩ => exact piece10 l0 r k
  | ⟨11, _⟩ => exact piece11 l0 r k
  | ⟨12, _⟩ => exact piece12 l0 r k
  | ⟨13, _⟩ => exact piece13 l0 r k
  | ⟨14, _⟩ => exact piece14 l0 r k
  | ⟨15, _⟩ => exact piece15 l0 r k
  | ⟨16, _⟩ => exact piece16 l0 r k
  | ⟨17, _⟩ => exact piece17 l0 r k
  | ⟨18, _⟩ => exact piece18 l0 r k
  | ⟨19, _⟩ => exact piece19 l0 r k
  | ⟨20, _⟩ => exact piece20 l0 r k
  | ⟨21, _⟩ => exact piece21 l0 r k
  | ⟨22, _⟩ => exact piece22 l0 r k
  | ⟨23, _⟩ => exact piece23 l0 r k
  | ⟨24, _⟩ => exact piece24 l0 r k
  | ⟨25, _⟩ => exact piece25 l0 r k
  | ⟨26, _⟩ => exact piece26 l0 r k
  | ⟨27, _⟩ => exact piece27 l0 r k
  | ⟨28, _⟩ => exact piece28 l0 r k
  | ⟨29, _⟩ => exact piece29 l0 r k
  | ⟨30, _⟩ => exact piece30 l0 r k
  | ⟨31, _⟩ => exact piece31 l0 r k
  | ⟨32, _⟩ => exact piece32 l0 r k
  | ⟨33, _⟩ => exact piece33 l0 r k
  | ⟨34, _⟩ => exact piece34 l0 r k
  | ⟨35, _⟩ => exact piece35 l0 r k
  | ⟨36, _⟩ => exact piece36 l0 r k
  | ⟨37, _⟩ => exact piece37 l0 r k
  | ⟨38, _⟩ => exact piece38 l0 r k
  | ⟨39, _⟩ => exact piece39 l0 r k
  | ⟨n + 40, h⟩ => exact absurd h (by omega)

/-- The forty pieces stacked: row p is the block's row (p div 40). -/
theorem stacked_apply (p : Fin 1600) (k : Fin 256) :
    concatenate S1600x256 0 (⟨S40x256, k0_pay5 (F := Ideal) l0⟩ :: ⟨S40x256, k0_pay6 (F := Ideal) l0⟩ :: ⟨S40x256, k0_pay7 (F := Ideal) l0⟩ :: ⟨S40x256, k0_pay8 (F := Ideal) l0⟩ :: ⟨S40x256, k0_pay9 (F := Ideal) l0⟩ :: ⟨S40x256, k0_pay10 (F := Ideal) l0⟩ :: ⟨S40x256, k0_pay11 (F := Ideal) l0⟩ :: ⟨S40x256, k0_pay12 (F := Ideal) l0⟩ :: ⟨S40x256, k0_pay13 (F := Ideal) l0⟩ :: ⟨S40x256, k0_pay14 (F := Ideal) l0⟩ :: ⟨S40x256, k0_pay15 (F := Ideal) l0⟩ :: ⟨S40x256, k0_pay16 (F := Ideal) l0⟩ :: ⟨S40x256, k0_pay17 (F := Ideal) l0⟩ :: ⟨S40x256, k0_pay18 (F := Ideal) l0⟩ :: ⟨S40x256, k0_pay19 (F := Ideal) l0⟩ :: ⟨S40x256, k0_pay21 (F := Ideal) (k0_pay20 l0)⟩ :: ⟨S40x256, k0_pay22 (F := Ideal) (k0_pay2 l0)⟩ :: ⟨S40x256, k0_pay23 (F := Ideal) (k0_pay2 l0)⟩ :: ⟨S40x256, k0_pay24 (F := Ideal) (k0_pay2 l0)⟩ :: ⟨S40x256, k0_pay25 (F := Ideal) (k0_pay2 l0)⟩ :: ⟨S40x256, k0_pay26 (F := Ideal) (k0_pay2 l0)⟩ :: ⟨S40x256, k0_pay27 (F := Ideal) (k0_pay2 l0)⟩ :: ⟨S40x256, k0_pay28 (F := Ideal) (k0_pay2 l0)⟩ :: ⟨S40x256, k0_pay29 (F := Ideal) (k0_pay2 l0)⟩ :: ⟨S40x256, k0_pay30 (F := Ideal) (k0_pay2 l0)⟩ :: ⟨S40x256, k0_pay31 (F := Ideal) (k0_pay2 l0)⟩ :: ⟨S40x256, k0_pay32 (F := Ideal) (k0_pay2 l0)⟩ :: ⟨S40x256, k0_pay33 (F := Ideal) (k0_pay2 l0)⟩ :: ⟨S40x256, k0_pay34 (F := Ideal) (k0_pay2 l0)⟩ :: ⟨S40x256, k0_pay35 (F := Ideal) (k0_pay2 l0)⟩ :: ⟨S40x256, k0_pay36 (F := Ideal) (k0_pay2 l0)⟩ :: ⟨S40x256, k0_pay37 (F := Ideal) (k0_pay2 l0)⟩ :: ⟨S40x256, k0_pay38 (F := Ideal) (k0_pay2 l0)⟩ :: ⟨S40x256, k0_pay39 (F := Ideal) (k0_pay2 l0)⟩ :: ⟨S40x256, k0_pay40 (F := Ideal) (k0_pay2 l0)⟩ :: ⟨S40x256, broadcastTo S40x256 (shapeCast S1x256 (k0_pay41 (F := Ideal) (k0_pay2 l0)) shapeCasts_S1x256_S1x256) broadcasts_S1x256_S40x256⟩ :: ⟨S40x256, broadcastTo S40x256 (shapeCast S1x256 (extractStridedSlice S1x256 ![36, 0] (k0_pay2 (F := Ideal) l0) slices_S40x256_o36_0_S1x256) shapeCasts_S1x256_S1x256) broadcasts_S1x256_S40x256⟩ :: ⟨S40x256, broadcastTo S40x256 (shapeCast S1x256 (extractStridedSlice S1x256 ![37, 0] (k0_pay2 (F := Ideal) l0) slices_S40x256_o37_0_S1x256) shapeCasts_S1x256_S1x256) broadcasts_S1x256_S40x256⟩ :: ⟨S40x256, broadcastTo S40x256 (shapeCast S1x256 (extractStridedSlice S1x256 ![38, 0] (k0_pay2 (F := Ideal) l0) slices_S40x256_o38_0_S1x256) shapeCasts_S1x256_S1x256) broadcasts_S1x256_S40x256⟩ :: ⟨S40x256, broadcastTo S40x256 (shapeCast S1x256 (extractStridedSlice S1x256 ![39, 0] (k0_pay2 (F := Ideal) l0) slices_S40x256_o39_0_S1x256) shapeCasts_S1x256_S1x256) broadcasts_S1x256_S40x256⟩ :: []) concatenates_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S1600x256_d0 (ix2 p k)
      = l0 (ix3 (0 : Fin 1) (rrow p) k) :=
  (stack_rows_apply (pieces l0) concatenates_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S40x256_S1600x256_d0 p k).trans (pieces_apply l0 (rrow p) (lrow p) k)

end Rows

/-- The body's first two layers on all 1600 rows, from the batch's blocks and the weights as loaded. -/
def hidden (l0 : Vec Ideal S1x40x256 .f32) (l1 : Vec Ideal S1x1x256 .f32) (wA wB wC : Vec Ideal S256x512 .f32) (bb : Vec Ideal S512 .f32)
    (w1 : Vec Ideal S512x512 .f32) (b1 : Vec Ideal S512 .f32) : FVec Ideal S1600x512 .bf16 :=
  k0_pay42 (F := Ideal) (k0_pay2 l0) (k0_pay3 l1) (k0_pay4 l0) (k0_pay5 l0) (k0_pay6 l0) (k0_pay7 l0) (k0_pay8 l0) (k0_pay9 l0) (k0_pay10 l0) (k0_pay11 l0) (k0_pay12 l0) (k0_pay13 l0) (k0_pay14 l0) (k0_pay15 l0) (k0_pay16 l0) (k0_pay17 l0) (k0_pay18 l0) (k0_pay19 l0) (k0_pay21 (k0_pay20 l0)) (k0_pay22 (k0_pay2 l0)) (k0_pay23 (k0_pay2 l0)) (k0_pay24 (k0_pay2 l0)) (k0_pay25 (k0_pay2 l0)) (k0_pay26 (k0_pay2 l0)) (k0_pay27 (k0_pay2 l0)) (k0_pay28 (k0_pay2 l0)) (k0_pay29 (k0_pay2 l0)) (k0_pay30 (k0_pay2 l0)) (k0_pay31 (k0_pay2 l0)) (k0_pay32 (k0_pay2 l0)) (k0_pay33 (k0_pay2 l0)) (k0_pay34 (k0_pay2 l0)) (k0_pay35 (k0_pay2 l0)) (k0_pay36 (k0_pay2 l0)) (k0_pay37 (k0_pay2 l0)) (k0_pay38 (k0_pay2 l0)) (k0_pay39 (k0_pay2 l0)) (k0_pay40 (k0_pay2 l0)) (k0_pay41 (k0_pay2 l0)) wA wB wC bb w1 b1

/-- The output block after the body: its one store, over the blocks as loaded. -/
theorem out_eq (x0 : Vec Ideal S1x40x256 .f32) (x1 : Vec Ideal S1x1x256 .f32) (x2 : Vec Ideal S768x512 .f32) (x3 : Vec Ideal S512 .f32) (x4 : Vec Ideal S512x512 .f32) (x5 : Vec Ideal S512 .f32) (x6 : Vec Ideal S512x512 .f32) (x7 : Vec Ideal S512 .f32) (x8 : Vec Ideal S512x512 .f32) (x9 : Vec Ideal S512 .f32) (x10 : Vec Ideal S512x256 .f32) (x11 : Vec Ideal S256 .f32) :
    out0_12 (F := Ideal) x0 x1 x2 x3 x4 x5 x6 x7 x8 x9 x10 x11
      = View.canon [⟨r0_1, k0_pay1 (hidden (View.ld x0 r0_0) (View.ld x1 r0_1) (View.ld x2 r0_2) (View.ld x2 r0_3) (View.ld x2 r0_4)
          (View.ld x3 r0_5) (View.ld x4 r0_6) (View.ld x5 r0_5)) (View.ld x6 r0_6) (View.ld x7 r0_5) (View.ld x8 r0_6) (View.ld x9 r0_5)
          (View.ld x10 r0_7) (View.ld x11 r0_8)⟩] := rfl

end Cert.KernelIdeal.Body

end
-- ==== Proof.KernelPayload.lean ====
/-
  The value the kernel's body stores, entry by entry.

  The stored vector is computed in two stretches. The first (hidden) takes the batch's forty rows and the question
  row to the second layer's output on all 1600 pairs: with the two stackings read as rows (p mod 40) and (p div 40) of
  the block and each matrix product read as a sum of products, row p of it is the dense layer on the first layer's
  row p (hidden_apply). The second stretch applies the third layer, sums over the 1600 rows, and applies the two top
  layers to the summed row (tail_apply). Together the output block's entry o is blockNet at o (body_apply), and with
  the blocks read as rows of the whole arrays that is the network's entry (b, o) (blockNet_eq_top1).
-/
import proofs.«133592_j43001212567988_1_alg».proof.Proof.KernelRows

set_option maxRecDepth 16384

noncomputable section

open scoped BigOperators

namespace Cert.KernelIdeal.Body

open Cert.KernelIdeal Cert.KernelIdeal.Gen Cert.PairNet
open Idealize.ShloMosaic Idealize.ShloMosaic.TcCoe Idealize.ShloMosaic.ValueIdx

/-- The first two layers at an entry: the dense layer on row p of the first layer. -/
theorem hidden_apply (l0 : Vec Ideal S1x40x256 .f32) (l1 : Vec Ideal S1x1x256 .f32) (wA wB wC : Vec Ideal S256x512 .f32)
    (bb : Vec Ideal S512 .f32) (w1 : Vec Ideal S512x512 .f32) (b1 : Vec Ideal S512 .f32) (p : Fin 1600) (j : Fin 512) :
    hidden l0 l1 wA wB wC bb w1 b1 (ix2 p j) = dense (hid0B l0 l1 wA wB wC bb p) w1 b1 j := by
  unfold hidden k0_pay42
  refine (dense_rows_apply 1600 512 512 _ w1 b1 _ _ _ p j).trans ?_
  refine congrArg (fun a => dense a w1 b1 j) (funext fun h => ?_)
  refine (first_layer_apply _ _ _ wA wB wC bb _ _ _ p h).trans ?_
  unfold hid0B
  refine congrArg relu (congrArg₂ (· + ·) (congrArg₂ (· + ·) (congrArg₂ (· + ·) ?_ ?_) ?_) rfl)
  · exact Finset.sum_congr rfl fun k _ => congrArg (· * wA (ix2 k h)) (pay4_apply l0 p k)
  · exact Finset.sum_congr rfl fun k _ => congrArg (· * wB (ix2 k h)) (stacked_apply l0 p k)
  · exact Finset.sum_congr rfl fun k _ => congrArg (· * wC (ix2 k h)) (pay3_apply l1 k)

/-- From the second layer's output to the stored vector: the third layer on every row, the sum over the rows, and
    the two top layers on the summed row. -/
theorem tail_apply (h1 : FVec Ideal S1600x512 .bf16) (w2 : Vec Ideal S512x512 .f32) (b2 : Vec Ideal S512 .f32)
    (u0 : Vec Ideal S512x512 .f32) (c0 : Vec Ideal S512 .f32) (u1 : Vec Ideal S512x256 .f32) (c1 : Vec Ideal S256 .f32)
    (o : Fin 256) :
    k0_pay1 (F := Ideal) h1 w2 b2 u0 c0 u1 c1 (ix3 (0 : Fin 1) (0 : Fin 1) o)
      = dense (dense (fun j => ∑ p : Fin 1600, dense (fun i => h1 (ix2 p i)) w2 b2 j) u0 c0) u1 c1 o := by
  unfold k0_pay1
  refine (shapeCast_ab_1ab_apply _ _ (0 : Fin 1) (0 : Fin 1) o).trans ?_
  refine (dense_row_apply 512 256 _ u1 c1 _ _ o).trans ?_
  refine congrArg (fun a => dense a u1 c1 o) (funext fun k => ?_)
  refine (dense_row_apply 512 512 _ u0 c0 _ _ k).trans ?_
  refine congrArg (fun a => dense a u0 c0 k) (funext fun j => ?_)
  rw [truncf_apply]
  refine (shapeCast_a_1a_apply _ _ (0 : Fin 1) j).trans ?_
  refine (column_sum_apply _ _ _ _ j).trans ?_
  refine Finset.sum_congr rfl fun p _ => ?_
  exact dense_rows_apply 1600 512 512 h1 w2 b2 _ _ _ p j

/-- Zero offsets, however many axes. -/
theorem off3 : (![0, 0, 0] : Fin 3 → Nat) = fun _ => 0 := by funext a; match a with | ⟨0, _⟩ => rfl | ⟨1, _⟩ => rfl | ⟨2, _⟩ => rfl
theorem off2 : (![0, 0] : Fin 2 → Nat) = fun _ => 0 := by funext a; match a with | ⟨0, _⟩ => rfl | ⟨1, _⟩ => rfl
theorem off1 : (![0] : Fin 1 → Nat) = fun _ => 0 := by funext a; match a with | ⟨0, _⟩ => rfl

/-- The output block after the body, at entry o: the network of the batch whose blocks the body was given. -/
theorem body_apply (x0 : Vec Ideal S1x40x256 .f32) (x1 : Vec Ideal S1x1x256 .f32) (x2 : Vec Ideal S768x512 .f32)
    (x3 : Vec Ideal S512 .f32) (x4 : Vec Ideal S512x512 .f32) (x5 : Vec Ideal S512 .f32) (x6 : Vec Ideal S512x512 .f32)
    (x7 : Vec Ideal S512 .f32) (x8 : Vec Ideal S512x512 .f32) (x9 : Vec Ideal S512 .f32) (x10 : Vec Ideal S512x256 .f32)
    (x11 : Vec Ideal S256 .f32) (o : Fin 256) :
    out0_12 (F := Ideal) x0 x1 x2 x3 x4 x5 x6 x7 x8 x9 x10 x11 (ix3 (0 : Fin 1) (0 : Fin 1) o)
      = blockNet x0 x1 (View.ld x2 r0_2) (View.ld x2 r0_3) (View.ld x2 r0_4) x3 x4 x5 x6 x7 x8 x9 x10 x11 o := by
  rw [out_eq, View.canon_unit_zero off3]
  simp only [View.ld_unit_zero (S := S1x40x256) off3, View.ld_unit_zero (S := S1x1x256) off3,
    View.ld_unit_zero (S := S512) off1, View.ld_unit_zero (S := S512x512) off2, View.ld_unit_zero (S := S512x256) off2,
    View.ld_unit_zero (S := S256) off1]
  refine (tail_apply _ x6 x7 x8 x9 x10 x11 o).trans ?_
  unfold blockNet
  have e : ∀ p : Fin 1600, (fun i => hidden x0 x1 (View.ld x2 r0_2) (View.ld x2 r0_3) (View.ld x2 r0_4) x3 x4 x5 (ix2 p i))
      = dense (hid0B x0 x1 (View.ld x2 r0_2) (View.ld x2 r0_3) (View.ld x2 r0_4) x3 p) x4 x5 :=
    fun p => funext fun i => hidden_apply x0 x1 _ _ _ x3 x4 x5 p i
  simp only [e]

/-- With the batch's blocks read as rows of the whole arrays, and the three loaded blocks of the first weight as its
    three blocks of rows, the batch's network is the whole network's row b. -/
theorem blockNet_eq_top1 (x : (⟨3, ![32, 40, 256]⟩ : Shape).Idx → EReal) (q : (⟨2, ![32, 256]⟩ : Shape).Idx → EReal)
    (w0 : Vec Ideal S768x512 .f32) (b0 : Vec Ideal S512 .f32) (w1 : Vec Ideal S512x512 .f32) (b1 : Vec Ideal S512 .f32)
    (w2 : Vec Ideal S512x512 .f32) (b2 : Vec Ideal S512 .f32) (u0 : Vec Ideal S512x512 .f32) (c0 : Vec Ideal S512 .f32)
    (u1 : Vec Ideal S512x256 .f32) (c1 : Vec Ideal S256 .f32) (b : Fin 32)
    (xb : Vec Ideal S1x40x256 .f32) (qb : Vec Ideal S1x1x256 .f32)
    (hx : ∀ (r : Fin 40) (k : Fin 256), xb (ix3 (0 : Fin 1) r k) = x (ix3 b r k))
    (hq : ∀ k : Fin 256, qb (ix3 (0 : Fin 1) (0 : Fin 1) k) = q (ix2 b k)) (o : Fin 256) :
    blockNet xb qb (View.ld w0 r0_2) (View.ld w0 r0_3) (View.ld w0 r0_4) b0 w1 b1 w2 b2 u0 c0 u1 c1 o
      = top1 x q w0 b0 w1 b1 w2 b2 u0 c0 u1 c1 b o := by
  have e : ∀ p : Fin 1600, hid0B xb qb (View.ld w0 r0_2) (View.ld w0 r0_3) (View.ld w0 r0_4) b0 p = hid0 x q w0 b0 b p :=
    fun p => funext fun h => by
      unfold hid0B hid0
      refine congrArg relu (congrArg₂ (· + ·) (congrArg₂ (· + ·) (congrArg₂ (· + ·) ?_ ?_) ?_) rfl)
      · exact Finset.sum_congr rfl fun k _ => congrArg₂ (· * ·) (hx _ k) (ld_blk0 w0 k h)
      · exact Finset.sum_congr rfl fun k _ => congrArg₂ (· * ·) (hx _ k) (ld_blk1 w0 k h)
      · exact Finset.sum_congr rfl fun k _ => congrArg₂ (· * ·) (hq k) (ld_blk2 w0 k h)
  unfold blockNet top1 top0 pooled rel hid1
  simp only [e]

end Cert.KernelIdeal.Body

end
-- ==== Proof.KernelWeights.lean ====
/-
  The table of the ten weight windows (the five weight matrices and the five bias vectors). Each is staged whole: its
  block index is 0 on every axis at every grid point (idx_wK, decided over the 32 points), so its block's entry y sits at
  0 * extent + y on every axis, and the block the body is given is the argument array itself (blkK_eq). -/
import proofs.«133592_j43001212567988_1_alg».proof.Proof.Gen.KernelIdeal.Frame
import Idealize.ShloMosaic.Lib.Pipeline.Value
import Idealize.ShloMosaic.PureOps.Ideal

set_option maxRecDepth 16384

noncomputable section

namespace Cert.KernelIdeal.Body

open Cert.KernelIdeal Cert.KernelIdeal.Gen
open Idealize.ShloMosaic Idealize.ShloMosaic.TcCoe Idealize.SL.Sem

variable (m : (ℓ : Loc nD τ sig) → Buf (Elt Ideal) ℓ)

theorem idx_w2 : ∀ t : Fin cfg0.N, win0_2.index t (0 : Fin 2) = 0 ∧ win0_2.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)
theorem idx_w10 : ∀ t : Fin cfg0.N, win0_10.index t (0 : Fin 2) = 0 ∧ win0_10.index t (1 : Fin 2) = 0 :=
  (by decide +kernel : ∀ t : Fin grid0.N, _)
theorem idx_w3 : ∀ t : Fin cfg0.N, win0_3.index t (0 : Fin 1) = 0 :=
  (by decide +kernel : ∀ t : Fin grid0.N, _)
theorem idx_w5 : ∀ t : Fin cfg0.N, win0_5.index t (0 : Fin 1) = 0 :=
  (by decide +kernel : ∀ t : Fin grid0.N, _)
theorem idx_w7 : ∀ t : Fin cfg0.N, win0_7.index t (0 : Fin 1) = 0 :=
  (by decide +kernel : ∀ t : Fin grid0.N, _)
theorem idx_w9 : ∀ t : Fin cfg0.N, win0_9.index t (0 : Fin 1) = 0 :=
  (by decide +kernel : ∀ t : Fin grid0.N, _)
theorem idx_w11 : ∀ t : Fin cfg0.N, win0_11.index t (0 : Fin 1) = 0 :=
  (by decide +kernel : ∀ t : Fin grid0.N, _)

theorem blk2_eq (c : Dev nD) (t : Fin cfg0.N) : iblk m c 2 t = m ((c : Thread nD τ).loc main_arg2) := by
  rw [← V_main_arg2 m c]
  funext y
  show V m c main_arg2 (((cfg0.win 2).blk t).view.emb y) = V m c main_arg2 y
  refine congrArg (V m c main_arg2) (funext fun a => Fin.ext ?_)
  obtain ⟨e0, e1⟩ := idx_w2 t
  match a with
  | ⟨0, _⟩ => show win0_2.index t (0 : Fin 2) * 768 + 1 * (y 0).val = (y 0).val; omega
  | ⟨1, _⟩ => show win0_2.index t (1 : Fin 2) * 512 + 1 * (y 1).val = (y 1).val; omega
theorem blk4_eq (c : Dev nD) (t : Fin cfg0.N) : iblk m c 4 t = m ((c : Thread nD τ).loc main_arg4) := by
  rw [← V_main_arg4 m c]
  funext y
  show V m c main_arg4 (((cfg0.win 4).blk t).view.emb y) = V m c main_arg4 y
  refine congrArg (V m c main_arg4) (funext fun a => Fin.ext ?_)
  obtain ⟨e0, e1⟩ := idx_w4 t
  match a with
  | ⟨0, _⟩ => show win0_4.index t (0 : Fin 2) * 512 + 1 * (y 0).val = (y 0).val; omega
  | ⟨1, _⟩ => show win0_4.index t (1 : Fin 2) * 512 + 1 * (y 1).val = (y 1).val; omega
theorem blk6_eq (c : Dev nD) (t : Fin cfg0.N) : iblk m c 6 t = m ((c : Thread nD τ).loc main_arg6) := by
  rw [← V_main_arg6 m c]
  funext y
  show V m c main_arg6 (((cfg0.win 6).blk t).view.emb y) = V m c main_arg6 y
  refine congrArg (V m c main_arg6) (funext fun a => Fin.ext ?_)
  obtain ⟨e0, e1⟩ := idx_w6 t
  match a with
  | ⟨0, _⟩ => show win0_6.index t (0 : Fin 2) * 512 + 1 * (y 0).val = (y 0).val; omega
  | ⟨1, _⟩ => show win0_6.index t (1 : Fin 2) * 512 + 1 * (y 1).val = (y 1).val; omega
theorem blk8_eq (c : Dev nD) (t : Fin cfg0.N) : iblk m c 8 t = m ((c : Thread nD τ).loc main_arg8) := by
  rw [← V_main_arg8 m c]
  funext y
  show V m c main_arg8 (((cfg0.win 8).blk t).view.emb y) = V m c main_arg8 y
  refine congrArg (V m c main_arg8) (funext fun a => Fin.ext ?_)
  obtain ⟨e0, e1⟩ := idx_w8 t
  match a with
  | ⟨0, _⟩ => show win0_8.index t (0 : Fin 2) * 512 + 1 * (y 0).val = (y 0).val; omega
  | ⟨1, _⟩ => show win0_8.index t (1 : Fin 2) * 512 + 1 * (y 1).val = (y 1).val; omega
theorem blk10_eq (c : Dev nD) (t : Fin cfg0.N) : iblk m c 10 t = m ((c : Thread nD τ).loc main_arg10) := by
  rw [← V_main_arg10 m c]
  funext y
  show V m c main_arg10 (((cfg0.win 10).blk t).view.emb y) = V m c main_arg10 y
  refine congrArg (V m c main_arg10) (funext fun a => Fin.ext ?_)
  obtain ⟨e0, e1⟩ := idx_w10 t
  match a with
  | ⟨0, _⟩ => show win0_10.index t (0 : Fin 2) * 512 + 1 * (y 0).val = (y 0).val; omega
  | ⟨1, _⟩ => show win0_10.index t (1 : Fin 2) * 256 + 1 * (y 1).val = (y 1).val; omega
theorem blk3_eq (c : Dev nD) (t : Fin cfg0.N) : iblk m c 3 t = m ((c : Thread nD τ).loc main_arg3) := by
  rw [← V_main_arg3 m c]
  funext y
  show V m c main_arg3 (((cfg0.win 3).blk t).view.emb y) = V m c main_arg3 y
  refine congrArg (V m c main_arg3) (funext fun a => Fin.ext ?_)
  have e0 := idx_w3 t
  match a with
  | ⟨0, _⟩ => show win0_3.index t (0 : Fin 1) * 512 + 1 * (y 0).val = (y 0).val; omega
theorem blk5_eq (c : Dev nD) (t : Fin cfg0.N) : iblk m c 5 t = m ((c : Thread nD τ).loc main_arg5) := by
  rw [← V_main_arg5 m c]
  funext y
  show V m c main_arg5 (((cfg0.win 5).blk t).view.emb y) = V m c main_arg5 y
  refine congrArg (V m c main_arg5) (funext fun a => Fin.ext ?_)
  have e0 := idx_w5 t
  match a with
  | ⟨0, _⟩ => show win0_5.index t (0 : Fin 1) * 512 + 1 * (y 0).val = (y 0).val; omega
theorem blk7_eq (c : Dev nD) (t : Fin cfg0.N) : iblk m c 7 t = m ((c : Thread nD τ).loc main_arg7) := by
  rw [← V_main_arg7 m c]
  funext y
  show V m c main_arg7 (((cfg0.win 7).blk t).view.emb y) = V m c main_arg7 y
  refine congrArg (V m c main_arg7) (funext fun a => Fin.ext ?_)
  have e0 := idx_w7 t
  match a with
  | ⟨0, _⟩ => show win0_7.index t (0 : Fin 1) * 512 + 1 * (y 0).val = (y 0).val; omega
theorem blk9_eq (c : Dev nD) (t : Fin cfg0.N) : iblk m c 9 t = m ((c : Thread nD τ).loc main_arg9) := by
  rw [← V_main_arg9 m c]
  funext y
  show V m c main_arg9 (((cfg0.win 9).blk t).view.emb y) = V m c main_arg9 y
  refine congrArg (V m c main_arg9) (funext fun a => Fin.ext ?_)
  have e0 := idx_w9 t
  match a with
  | ⟨0, _⟩ => show win0_9.index t (0 : Fin 1) * 512 + 1 * (y 0).val = (y 0).val; omega
theorem blk11_eq (c : Dev nD) (t : Fin cfg0.N) : iblk m c 11 t = m ((c : Thread nD τ).loc main_arg11) := by
  rw [← V_main_arg11 m c]
  funext y
  show V m c main_arg11 (((cfg0.win 11).blk t).view.emb y) = V m c main_arg11 y
  refine congrArg (V m c main_arg11) (funext fun a => Fin.ext ?_)
  have e0 := idx_w11 t
  match a with
  | ⟨0, _⟩ => show win0_11.index t (0 : Fin 1) * 256 + 1 * (y 0).val = (y 0).val; omega

end Cert.KernelIdeal.Body

end
-- ==== Proof.KernelValue.lean ====
/-
  The kernel's run, read: after it the result array is the network's array.

  The region walks 32 grid points, one per batch. At point t the body is given rows t of x and of q (the latter
  through a [32, 1, 256] view of q made before the region) and every weight whole, and leaves in its output block the
  network of that batch (body_apply). Read as rows of the whole arrays, that block is row t of the [32, 1, 256] array
  mid; the 32 blocks cover that array, so after the region the array is mid; and the last line of the program views
  it as [32, 256], which is the network's result.
-/
import proofs.«133592_j43001212567988_1_alg».proof.Proof.KernelPayload
import proofs.«133592_j43001212567988_1_alg».proof.Proof.KernelWeights
import Idealize.ShloMosaic.Lib.Pipeline.Value
import Idealize.ShloMosaic.Lib.StableHlo.Run

set_option maxRecDepth 16384

noncomputable section

open scoped BigOperators

namespace Cert.KernelIdeal.Body

open Cert.KernelIdeal Cert.KernelIdeal.Gen Cert.PairNet
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where each window's block sits, decided over the 32 grid points -/

/-- The windows of x, of q's view and of the result move one block per point along the batch axis. -/
theorem idx_x : ∀ t : Fin cfg0.N, t.val < 32 ∧ win0_0.index t (0 : Fin 3) = t.val ∧ win0_0.index t (1 : Fin 3) = 0
    ∧ win0_0.index t (2 : Fin 3) = 0 :=
  (by decide +kernel : ∀ t : Fin grid0.N, _)
theorem idx_q : ∀ t : Fin cfg0.N, win0_1.index t (0 : Fin 3) = t.val ∧ win0_1.index t (1 : Fin 3) = 0
    ∧ win0_1.index t (2 : Fin 3) = 0 :=
  (by decide +kernel : ∀ t : Fin grid0.N, _)
theorem idx_o : ∀ t : Fin cfg0.N, win0_12.index t (0 : Fin 3) = t.val ∧ win0_12.index t (1 : Fin 3) = 0
    ∧ win0_12.index t (2 : Fin 3) = 0 :=
  (by decide +kernel : ∀ t : Fin grid0.N, _)
/-- Every batch is some point's. -/
theorem idx_onto : ∀ q0 : Fin 32, ∃ t : Fin cfg0.N, win0_12.index t (0 : Fin 3) = q0.val :=
  (by decide +kernel : ∀ q0 : Fin 32, ∃ t : Fin grid0.N, win0_12.index t (0 : Fin 3) = q0.val)
/-- The batch a grid point works on. -/
def batch (t : Fin cfg0.N) : Fin 32 := ⟨t.val, (idx_x t).1⟩

/-! ## The blocks of x and of q's view as rows of the arrays (the weights' blocks are the arrays: KernelWeights) -/

/-- The block of x at point t is row (batch t) of x. -/
theorem xblk_apply (c : Dev nD) (t : Fin cfg0.N) (r : Fin 40) (k : Fin 256) :
    (iblk m c 0 t : Vec Ideal S1x40x256 .f32) (ix3 (0 : Fin 1) r k) = m ((c : Thread nD τ).loc main_arg0) (ix3 (batch t) r k) := by
  rw [← V_main_arg0 m c]
  show V m c main_arg0 (((cfg0.win 0).blk t).view.emb (ix3 (0 : Fin 1) r k)) = V m c main_arg0 (ix3 (batch t) r k)
  refine congrArg (V m c main_arg0) (funext fun a => Fin.ext ?_)
  obtain ⟨-, e0, e1, e2⟩ := idx_x t
  match a with
  | ⟨0, _⟩ => show win0_0.index t (0 : Fin 3) * 1 + 1 * 0 = t.val; omega
  | ⟨1, _⟩ => show win0_0.index t (1 : Fin 3) * 40 + 1 * r.val = r.val; omega
  | ⟨2, _⟩ => show win0_0.index t (2 : Fin 3) * 256 + 1 * k.val = k.val; omega

/-- The [32, 1, 256] view of q that the program makes before the region holds q[b, k] at (b, 0, k). -/
theorem qview_apply (c : Dev nD) (b : Fin 32) (k : Fin 256) :
    (V m c main_v0 : S32x1x256.Idx → EReal) (ix3 b (0 : Fin 1) k) = m ((c : Thread nD τ).loc main_arg1) (ix2 b k) := by
  have e : (V m c main_v0 : S32x1x256.Idx → EReal)
      = shapeCast S32x1x256 (m ((c : Thread nD τ).loc main_arg1)) shapeCasts_S32x256_S32x1x256 := by
    show StableHlo.after hostOps0 (fun b => m (c, b)) (Proc.devRef .tc main_v0) = _
    after_results
    rfl
  rw [e]
  refine shapeCast_apply _ _ _ (ix2 b k) ?_
  rw [Shape.rowMajor_val_two, Shape.rowMajor_val_three]
  show b.val * 256 + k.val = (b.val * 1 + 0) * 256 + k.val
  omega

/-- The block of q's view at point t is row (batch t) of q. -/
theorem qblk_apply (c : Dev nD) (t : Fin cfg0.N) (k : Fin 256) :
    (iblk m c 1 t : Vec Ideal S1x1x256 .f32) (ix3 (0 : Fin 1) (0 : Fin 1) k) = m ((c : Thread nD τ).loc main_arg1) (ix2 (batch t) k) := by
  rw [← qview_apply m c (batch t) k]
  show V m c main_v0 (((cfg0.win 1).blk t).view.emb (ix3 (0 : Fin 1) (0 : Fin 1) k)) = V m c main_v0 (ix3 (batch t) (0 : Fin 1) k)
  refine congrArg (V m c main_v0) (funext fun a => Fin.ext ?_)
  obtain ⟨e0, e1, e2⟩ := idx_q t
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 256 + 1 * k.val = k.val; omega

/-! ## The result array after the region -/

/-- The network's result with a unit axis in the middle: what the region's output array ends holding. -/
def mid (c : Dev nD) : S32x1x256.Idx → EReal := fun i =>
  top1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (i 0) (i 2)

/-- What the body leaves at point t, entry by entry: row (batch t) of mid. -/
theorem out_at (c : Dev nD) (t : Fin cfg0.N) (y : S1x1x256.Idx) :
    out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) y
      = mid m c (ix3 (batch t) (0 : Fin 1) (y 2)) := by
  obtain ⟨u, v, o, rfl⟩ : ∃ (u v : Fin 1) (o : Fin 256), y = ix3 u v o := ⟨y 0, y 1, y 2, eq_ix3 y⟩
  obtain rfl : u = 0 := Subsingleton.elim _ _
  obtain rfl : v = 0 := Subsingleton.elim _ _
  refine (body_apply _ _ _ _ _ _ _ _ _ _ _ _ o).trans ?_
  refine (blockNet_eq_top1 (m ((c : Thread nD τ).loc main_arg0)) (m ((c : Thread nD τ).loc main_arg1)) _ _ _ _ _ _ _ _ _ _
    (batch t) _ _ (xblk_apply m c t) (qblk_apply m c t) o).trans ?_
  rw [blk2_eq, blk3_eq, blk4_eq, blk5_eq, blk6_eq, blk7_eq, blk8_eq, blk9_eq, blk10_eq, blk11_eq]
  rfl

/-- WHAT POINT t WRITES BACK is block t of mid. -/
theorem flushed_eq (c : Dev nD) (t : Fin cfg0.N) :
    (dats m 0 c).flushed 12 t = ((cfg0.win 12).blk t).view.read (Elt Ideal) (mid m c) := by
  show (cfg0.win 12).cut (grid0.coords t) ((dats m 0 c).after 12 t) = _
  rw [after0_12]
  funext j
  refine (out_at m c t j).trans ?_
  show mid m c (ix3 (batch t) (0 : Fin 1) (j 2)) = mid m c (((cfg0.win 12).blk t).view.emb j)
  refine congrArg (mid m c) (funext fun a => Fin.ext ?_)
  obtain ⟨e0, e1, e2⟩ := idx_o t
  have h0 : (j 0).val < 1 := (j 0).isLt
  have h1 : (j 1).val < 1 := (j 1).isLt
  match a with
  | ⟨0, _⟩ => show t.val = win0_12.index t (0 : Fin 3) * 1 + 1 * (j 0).val; omega
  | ⟨1, _⟩ => show 0 = win0_12.index t (1 : Fin 3) * 1 + 1 * (j 1).val; omega
  | ⟨2, _⟩ => show (j 2).val = win0_12.index t (2 : Fin 3) * 256 + 1 * (j 2).val; omega

/-- An index of the array is in point t's block iff each coordinate is in the block's range on its axis. -/
theorem mem_blk (t : Fin cfg0.N) (i : S32x1x256.Idx) :
    i ∈ ((cfg0.win 12).blk t).view.set ↔ ∀ a : Fin 3, win0_12.index t a * S1x1x256.size a ≤ (i a).val
      ∧ (i a).val < win0_12.index t a * S1x1x256.size a + S1x1x256.size a := by
  show i ∈ ((View.whole main_v1).slice (win0_12.rect t)).set ↔ _
  rw [View.set_slice_whole, Rect.mem_set_unit]
  exact Iff.rfl

/-- The 32 blocks cover the array: index i is in the block of the point whose batch is i's first coordinate. -/
theorem cover (i : S32x1x256.Idx) : ∃ t : Fin cfg0.N, (cfg0.win 12).flush t = true ∧ i ∈ ((cfg0.win 12).blk t).view.set := by
  have hi0 : (i 0).val < 32 := (i 0).isLt
  have hi1 : (i 1).val < 1 := (i 1).isLt
  have hi2 : (i 2).val < 256 := (i 2).isLt
  obtain ⟨t, ht⟩ := idx_onto ⟨(i 0).val, hi0⟩
  have q0 : win0_12.index t (0 : Fin 3) = (i 0).val := ht
  obtain ⟨-, e1, e2⟩ := idx_o t
  refine ⟨t, flush0_12 t, ?_⟩
  rw [mem_blk]
  intro a
  match a with
  | ⟨0, _⟩ => show win0_12.index t (0 : Fin 3) * 1 ≤ (i 0).val ∧ (i 0).val < win0_12.index t (0 : Fin 3) * 1 + 1; omega
  | ⟨1, _⟩ => show win0_12.index t (1 : Fin 3) * 1 ≤ (i 1).val ∧ (i 1).val < win0_12.index t (1 : Fin 3) * 1 + 1; omega
  | ⟨2, _⟩ => show win0_12.index t (2 : Fin 3) * 256 ≤ (i 2).val ∧ (i 2).val < win0_12.index t (2 : Fin 3) * 256 + 256; omega

/-- THE ARRAY after the region is mid. -/
theorem final (c : Dev nD) : (dats m 0 c).arrAt 12 cfg0.N = mid m c :=
  (dats m 0 c).arrAt_eq_of_cover 12 (mid m c) (fun t _ => flushed_eq m c t) cover

/-! ## The program's last line, and the run -/

/-- The network's result array from the arguments as launched on core c. -/
def net (c : Dev nD) : S32x256.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The [32, 256] view of mid is the network's result. -/
theorem tail_value (c : Dev nD) :
    Pipeline.afterTail₀ cfgs (dats m) 0 (V0 m) [hostOps1] c main_v2 = net m c := by
  have e : Pipeline.withArrays (cfgs 0).spec c (V0 m c) (fun w => (dats m 0 c).arrAt w (cfgs 0).N) (Proc.tc.devRef main_v1)
      = mid m c :=
    (Pipeline.withArrays_arr spec0 launch0.win.arr_inj c _ _ 12).trans (final m c)
  unfold Pipeline.afterTail₀
  show StableHlo.after hostOps1 _ (Proc.devRef .tc main_v2) = _
  after_results
  funext (i : S32x256.Idx)
  obtain ⟨b, o, rfl⟩ : ∃ (b : Fin 32) (o : Fin 256), i = ix2 b o := ⟨i 0, i 1, eq_ix2 i⟩
  show shapeCast S32x256 (Pipeline.withArrays (cfgs 0).spec c (V0 m c) (fun w => (dats m 0 c).arrAt w (cfgs 0).N)
      (Proc.tc.devRef main_v1)) shapeCasts_S32x1x256_S32x256 (ix2 b o) = _
  rw [e]
  refine (shapeCast_apply (mid m c) _ (ix2 b o) (ix3 b (0 : Fin 1) o) ?_).trans rfl
  rw [Shape.rowMajor_val_three, Shape.rowMajor_val_two]
  show (b.val * 1 + 0) * 256 + o.val = b.val * 256 + o.val
  omega

/-- The kernel's run re-posted: the result array is the network's result of the arguments as launched, which end
    unchanged. -/
theorem run : θ_run defs (onTc (τ := τ) (main (F := Ideal))) ⟨m, fun _ => 0, ρ⟩ fun r => ∀ c : Dev nD,
      r.2.mem ((c.tc : Thread nD τ).loc main_v2) = net m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    ⟨((h c).2 main_v2 (Pipeline.mem_restRefs_of main_v2 (by decide) (by decide))).trans (tail_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c)))⟩)
    (run_main m ρ)

end Cert.KernelIdeal.Body

end
-- ==== Proof.lean ====
/-
  The kernel and its reference compute one relation network, and the certificate's five claims follow.

  For each batch b of 32 the network pairs every row of x[b] (40 rows of 256 numbers) with every row, 1600 ordered
  pairs, sets the question vector q[b] beside each pair, passes each 768-number pair through three rectified dense
  layers to 512 numbers, sums these over the 1600 pairs, and passes the sum through two rectified dense layers to the
  256 outputs (Proof/PairNet.lean: result).

  The reference builds the pairs as arrays (a tiled copy and a repeated copy of x, and q broadcast, joined along the
  feature axis) and contracts the 768 features against the whole first weight. The kernel never joins them: it
  multiplies the two stacked copies of the batch's rows and the question row by the three 256-row blocks of the first
  weight and adds the three products. Over the extended reals the two agree because a finite sum over 768 consecutive
  terms is the sum of its three blocks of 256, a law of every commutative additive monoid: no entry need be finite,
  and the precondition is never opened. Every change of float format in the kernel is the identity there, every matrix
  product is a sum of products, and both programs rectify against the same zero.

  The kernel's result array is read off its run block by block (Proof/KernelValue.lean: run), the reference's off its
  run stage by stage (Proof/RefValue.lean: result_eq); both are result of the arguments. The kernel's frames are the
  runs of its one region at the two instances; the reference's frame is its run with the result dropped; nothing was
  rewritten between the kernel and its idealization, so that claim is trivial.
-/
import proofs.«133592_j43001212567988_1_alg».proof.Defs
import proofs.«133592_j43001212567988_1_alg».proof.Proof.Gen.Kernel
import proofs.«133592_j43001212567988_1_alg».proof.Proof.Gen.Kernel.Skeleton
import proofs.«133592_j43001212567988_1_alg».proof.Proof.Gen.Kernel.Launch
import proofs.«133592_j43001212567988_1_alg».proof.Proof.Gen.Kernel.Points
import proofs.«133592_j43001212567988_1_alg».proof.Proof.Gen.Kernel.Frame
import proofs.«133592_j43001212567988_1_alg».proof.Proof.Gen.KernelIdeal
import proofs.«133592_j43001212567988_1_alg».proof.Proof.Gen.KernelIdeal.Skeleton
import proofs.«133592_j43001212567988_1_alg».proof.Proof.Gen.KernelIdeal.Launch
import proofs.«133592_j43001212567988_1_alg».proof.Proof.Gen.KernelIdeal.Points
import proofs.«133592_j43001212567988_1_alg».proof.Proof.Gen.KernelIdeal.Frame
import proofs.«133592_j43001212567988_1_alg».proof.Proof.Gen.ReferenceIdeal
import proofs.«133592_j43001212567988_1_alg».proof.Proof.Gen.ReferenceIdeal.Run
import proofs.«133592_j43001212567988_1_alg».proof.Proof.Gen.ReferenceIdeal.Read
import proofs.«133592_j43001212567988_1_alg».proof.Proof.Gen.Pre_finite_inputs
import proofs.«133592_j43001212567988_1_alg».proof.Proof.RefValue
import proofs.«133592_j43001212567988_1_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs and keeps its arguments: its one region's run at the word-level instance. -/
theorem frame_kernel : Cert.frame_Kernel := fun m ρ _ => Cert.Kernel.Gen.frame m ρ

/-- The same at the extended reals. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its idealization. -/
theorem preserves : Cert.preserves_Kernel_KernelIdeal := trivial

/-- From memories that agree on the arguments both programs end with the network's result of those arguments. -/
theorem algebraic : Cert.algebraic_KernelIdeal_ReferenceIdeal := by
  intro m ρ m' ρ' _ hagree
  refine ⟨fun c => Cert.KernelIdeal.Body.net m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v33_eq, Cert.ReferenceIdeal.RefValue.result_eq,
    a0, a1, a2, a3, a4, a5, a6, a7, a8, a9, a10, a11]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
